-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v33) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S800000 : Shape := ⟨1, ![800000]⟩
abbrev S512x256 : Shape := ⟨2, ![512, 256]⟩
abbrev S256 : Shape := ⟨1, ![256]⟩
abbrev S256x40 : Shape := ⟨2, ![256, 40]⟩
abbrev S40 : Shape := ⟨1, ![40]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S800000 : S_.BroadcastsInDim S800000 (![] : Fin 0 → Fin S800000.rank)
  reducesTo_S800000_S_d0 : S800000.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S256x40 .f32) (main_arg7 : FVec F S40 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x40 .f32 := Host.absf main_arg6
  let main_cst_6 : FVec F S_ .f32 := constant S_ .f32 0x7F800000#32
  let main_v20 : FVec F S256x40 .f32 := broadcastInDim S256x40 ![] bcast_S_S256x40 main_cst_6
  let main_v21 : IVec S256x40 1 := cmpf .olt main_v19 main_v20
  let main_c_7 : IVec S_ 1 := constantI S_ 1 1#1
  let main_v22 : IVec S_ 1 := (fun x v => Host.reduce IntOp.andi x v reducesTo_S256x40_S_d0_1 h_S_) main_v21 main_c_7
  let main_v23 : IVec S_ 1 := andi main_v18 main_v22
  let main_v24 : FVec F S40 .f32 := Host.absf main_arg7
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S50000x512 .f32) (main_arg1 : IVec S800000 32) (main_arg2 : IVec S800000 32) (main_arg3 : FVec F S800000 .f32) (main_arg4 : FVec F S512x256 .f32) (main_arg5 : FVec F S256 .f32) (main_arg6 : FVec F S256x40 .f32) (main_arg7 : FVec F S40 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S512x256 .f32 := Host.absf main_arg4
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_v13 main_v16
-- ==== Kernel.lean ====
abbrev S50000x512 : Shape := ⟨2, ![50000, 512]⟩
abbrev S800000 : Shape := ⟨1, ![800000]⟩
abbrev S512x256 : Shape := ⟨2, ![512, 256]⟩
abbrev S256 : Shape := ⟨1, ![256]⟩
abbrev S256x40 : Shape := ⟨2, ![256, 40]⟩
abbrev S40 : Shape := ⟨1, ![40]⟩
abbrev S50000x256 : Shape := ⟨2, ![50000, 256]⟩
abbrev S2000x512 : Shape := ⟨2, ![2000, 512]⟩
abbrev S2000x256 : Shape := ⟨2, ![2000, 256]⟩
abbrev S_ : Shape := ⟨0, ![]⟩
abbrev S800000x1 : Shape := ⟨2, ![800000, 1]⟩
abbrev S800000x256 : Shape := ⟨2, ![800000, 256]⟩
abbrev S1x256 : Shape := ⟨2, ![1, 256]⟩
abbrev S50000x40 : Shape := ⟨2, ![50000, 40]⟩
abbrev S5000x256 : Shape := ⟨2, ![5000, 256]⟩
abbrev S5000x40 : Shape := ⟨2, ![5000, 40]⟩
abbrev S800000x40 : Shape := ⟨2, ![800000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 49
  | .vmem => 14
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S512x256, .f32⟩
  | .hbm, ⟨5, _⟩ => ⟨S256, .f32⟩
  | .hbm, ⟨6, _⟩ => ⟨S256x40, .f32⟩
  | .hbm, ⟨7, _⟩ => ⟨S40, .f32⟩
  | .hbm, ⟨8, _⟩ => ⟨S50000x256, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x256, .f32⟩
  | .hbm, ⟨18, _⟩ => ⟨S800000x1, .f32⟩
  | .hbm, ⟨19, _⟩ => ⟨S800000x256, .f32⟩
  | .hbm, ⟨20, _⟩ => ⟨S800000x256, .f32⟩
  | .hbm, ⟨21, _⟩ => ⟨S_, .f32⟩
  | .hbm, ⟨22, _⟩ => ⟨S50000x256, .f32⟩
  | .hbm, ⟨23, _⟩ => ⟨S800000x1, .i32⟩
  | .hbm, ⟨24, _⟩ => ⟨S50000x256, .f32⟩
  | .hbm, ⟨25, _⟩ => ⟨S1x256, .f32⟩
  | .hbm, ⟨26, _⟩ => ⟨S50000x256, .f32⟩
  | .hbm, ⟨27, _⟩ => ⟨S50000x256, .f32⟩
  | .hbm, ⟨28, _⟩ => ⟨S50000x40, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x40, .f32⟩
  | .hbm, ⟨38, _⟩ => ⟨S800000x1, .f32⟩
  | .hbm, ⟨39, _⟩ => ⟨S800000x40, .f32⟩
  | .hbm, ⟨40, _⟩ => ⟨S800000x40, .f32⟩
  | .hbm, ⟨41, _⟩ => ⟨S_, .f32⟩
  | .hbm, ⟨42, _⟩ => ⟨S50000x40, .f32⟩
  | .hbm, ⟨43, _⟩ => ⟨S800000x1, .i32⟩
  | .hbm, ⟨44, _⟩ => ⟨S50000x40, .f32⟩
  | .hbm, ⟨45, _⟩ => ⟨S1x40, .f32⟩
  | .hbm, ⟨46, _⟩ => ⟨S50000x40, .f32⟩
  | .hbm, ⟨47, _⟩ => ⟨S50000x40, .f32⟩
  | .hbm, ⟨48, _⟩ => ⟨S50000x40, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | .local _ .vmem, ⟨5, _⟩ => ⟨S5000x256, .f32⟩
  | .local _ .vmem, ⟨6, _⟩ => ⟨S5000x256, .f32⟩
  | .local _ .vmem, ⟨7, _⟩ => ⟨S256x40, .f32⟩
  | .local _ .vmem, ⟨8, _⟩ => ⟨S5000x40, .f32⟩
  | .local _ .vmem, ⟨9, _⟩ => ⟨S5000x40, .f32⟩
  | .local _ .vmem, ⟨10, _⟩ => ⟨S5000x40, .f32⟩
  | .local _ .vmem, ⟨11, _⟩ => ⟨S5000x40, .f32⟩
  | .local _ .vmem, ⟨12, _⟩ => ⟨S5000x40, .f32⟩
  | .local _ .vmem, ⟨13, _⟩ => ⟨S5000x40, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_1 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x40 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x40_S256x40_0_0 : ∀ a, (![0, 0] : Fin 2 → Nat) a + S256x40.size a ≤ S256x40.size a
  h_S256x40 : 0 < S256x40.numel
  inb_S5000x40_S5000x40_0_0 : ∀ a, (![0, 0] : Fin 2 → Nat) a + S5000x40.size a ≤ S5000x40.size a
  h_S5000x40 : 0 < S5000x40.numel
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  shapeCasts_S5000x40_S5000x40 : S5000x40.ShapeCasts S5000x40
  reduces_S5000x40_S5000 : S5000x40.Reduces [1] S5000
  shapeCasts_S5000_S5000x1 : S5000.ShapeCasts S5000x1
  broadcasts_S5000x1_S5000x40 : S5000x1.Broadcasts S5000x40
  dot_S2000x512_S512x256_S2000x256_1_0_0_1_n_n_wf : DotDims.WF S2000x512 S512x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x40_S5000x40_1_0_0_1_n_n_wf : DotDims.WF S5000x256 S256x40 S5000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x40.size a ≤ S256x40.size a
  hwx1_1 : ∀ i : grid1.Coords, EltTy.bits .f32 = 32 ∨ (Rect.block (s := S256x40) S256x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x40.size a ≤ S50000x40.size a
  hwx1_2 : ∀ i : grid1.Coords, EltTy.bits .f32 = 32 ∨ (Rect.block (s := S50000x40) S5000x40.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S50000x40.size a
  hwx2_0 : ∀ i : grid2.Coords, EltTy.bits .f32 = 32 ∨ (Rect.block (s := S50000x40) S5000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x40.size a ≤ S50000x40.size a
  hwx2_1 : ∀ i : grid2.Coords, EltTy.bits .f32 = 32 ∨ (Rect.block (s := S50000x40) S5000x40.size (cc2_transform_1 i) (hinb2_1 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x40_S5000x40_1_0_0_1_n_n : DotDims S5000x256 S256x40 S5000x40 where
  lhsContracting := [1]
  rhsContracting := [0]
  lhsNonContracting := [0]
  rhsNonContracting := [1]
  lhsBatch := []
  rhsBatch := []
  wf := dot_S5000x256_S256x40_S5000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v16) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S256x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S5000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v33) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S5000x40.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S50000x512 : Shape := ⟨2, ![50000, 512]⟩
abbrev S800000 : Shape := ⟨1, ![800000]⟩
abbrev S512x256 : Shape := ⟨2, ![512, 256]⟩
abbrev S256 : Shape := ⟨1, ![256]⟩
abbrev S256x40 : Shape := ⟨2, ![256, 40]⟩
abbrev S40 : Shape := ⟨1, ![40]⟩
abbrev S50000x256 : Shape := ⟨2, ![50000, 256]⟩
abbrev S_ : Shape := ⟨0, ![]⟩
abbrev S800000x1 : Shape := ⟨2, ![800000, 1]⟩
abbrev S800000x256 : Shape := ⟨2, ![800000, 256]⟩
abbrev S1x256 : Shape := ⟨2, ![1, 256]⟩
abbrev S50000x40 : Shape := ⟨2, ![50000, 40]⟩
abbrev S800000x40 : Shape := ⟨2, ![800000, 40]⟩
abbrev S1x40 : Shape := ⟨2, ![1, 40]⟩
abbrev S50000 : Shape := ⟨1, ![50000]⟩
abbrev S50000x1 : Shape := ⟨2, ![50000, 1]⟩

abbrev nBuf : Space → Nat
  | .hbm => 66
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S512x256, .f32⟩
  | .hbm, ⟨5, _⟩ => ⟨S256, .f32⟩
  | .hbm, ⟨6, _⟩ => ⟨S256x40, .f32⟩
  | .hbm, ⟨7, _⟩ => ⟨S40, .f32⟩
  | .hbm, ⟨8, _⟩ => ⟨S50000x256, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x256, .f32⟩
  | .hbm, ⟨18, _⟩ => ⟨S800000x1, .f32⟩
  | .hbm, ⟨19, _⟩ => ⟨S800000x256, .f32⟩
  | .hbm, ⟨20, _⟩ => ⟨S800000x256, .f32⟩
  | .hbm, ⟨21, _⟩ => ⟨S_, .f32⟩
  | .hbm, ⟨22, _⟩ => ⟨S50000x256, .f32⟩
  | .hbm, ⟨23, _⟩ => ⟨S800000x1, .i32⟩
  | .hbm, ⟨24, _⟩ => ⟨S50000x256, .f32⟩
  | .hbm, ⟨25, _⟩ => ⟨S1x256, .f32⟩
  | .hbm, ⟨26, _⟩ => ⟨S50000x256, .f32⟩
  | .hbm, ⟨27, _⟩ => ⟨S50000x256, .f32⟩
  | .hbm, ⟨28, _⟩ => ⟨S_, .f32⟩
  | .hbm, ⟨29, _⟩ => ⟨S50000x256, .f32⟩
  | .hbm, ⟨30, _⟩ => ⟨S50000x256, .f32⟩
  | .hbm, ⟨31, _⟩ => ⟨S50000x40, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x40, .f32⟩
  | .hbm, ⟨41, _⟩ => ⟨S800000x1, .f32⟩
  | .hbm, ⟨42, _⟩ => ⟨S800000x40, .f32⟩
  | .hbm, ⟨43, _⟩ => ⟨S800000x40, .f32⟩
  | .hbm, ⟨44, _⟩ => ⟨S_, .f32⟩
  | .hbm, ⟨45, _⟩ => ⟨S50000x40, .f32⟩
  | .hbm, ⟨46, _⟩ => ⟨S800000x1, .i32⟩
  | .hbm, ⟨47, _⟩ => ⟨S50000x40, .f32⟩
  | .hbm, ⟨48, _⟩ => ⟨S1x40, .f32⟩
  | .hbm, ⟨49, _⟩ => ⟨S50000x40, .f32⟩
  | .hbm, ⟨50, _⟩ => ⟨S50000x40, .f32⟩
  | .hbm, ⟨51, _⟩ => ⟨S_, .f32⟩
  | .hbm, ⟨52, _⟩ => ⟨S50000, .f32⟩
  | .hbm, ⟨53, _⟩ => ⟨S_, .f32⟩
  | .hbm, ⟨54, _⟩ => ⟨S50000, .f32⟩
  | .hbm, ⟨55, _⟩ => ⟨S50000, .f32⟩
  | .hbm, ⟨56, _⟩ => ⟨S50000x1, .f32⟩
  | .hbm, ⟨57, _⟩ => ⟨S50000x40, .f32⟩
  | .hbm, ⟨58, _⟩ => ⟨S50000x40, .f32⟩
  | .hbm, ⟨59, _⟩ => ⟨S50000x40, .f32⟩
  | .hbm, ⟨60, _⟩ => ⟨S_, .f32⟩
  | .hbm, ⟨61, _⟩ => ⟨S50000, .f32⟩
  | .hbm, ⟨62, _⟩ => ⟨S50000x1, .f32⟩
  | .hbm, ⟨63, _⟩ => ⟨S50000x1, .f32⟩
  | .hbm, ⟨64, _⟩ => ⟨S50000x40, .f32⟩
  | .hbm, ⟨65, _⟩ => ⟨S50000x40, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call1_cst : Ref sig .tc := ⟨.hbm, 51, rfl⟩
abbrev main_call1_v0 : Ref sig .tc := ⟨.hbm, 52, rfl⟩
abbrev main_call1_cst_0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_cst_1 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_v35 : Ref sig .tc := ⟨.hbm, 65, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  dot_S50000x512_S512x256_S50000x256_1_0_0_1_n_n_wf : DotDims.WF S50000x512 S512x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x40_S50000x40_1_0_0_1_n_n_wf : DotDims.WF S50000x256 S256x40 S50000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x40_S50000x40_1_0_0_1_n_n : DotDims S50000x256 S256x40 S50000x40 where
  lhsContracting := [1]
  rhsContracting := [0]
  lhsNonContracting := [0]
  rhsNonContracting := [1]
  lhsBatch := []
  rhsBatch := []
  wf := dot_S50000x256_S256x40_S50000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

class Facts : Prop extends Facts₀ where

variable [Facts]
-- ==== Proof.Spec.lean ====
/-
  The three dense stages of the two-layer graph convolution, as functions of whole arrays on the extended reals.

  * `rowsTimes x w`: the matrix product, entry (p, q) = Σ_k x[p, k] · w[k, q].
  * `relu x`: the positive part, entry by entry, max(x, 0).
  * `logSoftmaxRows y`: in each row p, with m_p = max_k y[p, k] taken from -∞,
    entry (p, q) = (y[p, q] - m_p) - log Σ_k exp(y[p, k] - m_p).

  The sums and the maximum are over a whole row, so they do not depend on how the rows are grouped into blocks: a block
  of consecutive rows of the result is the same function of the same rows of the operand. The two facts below that are
  used for that are stated for an arbitrary row map `r` (block row p is array row `r p`).
-/
import Idealize.ShloMosaic.PureOps.Ideal.Laws
import Idealize.ShloMosaic.Lib.ValueIdx

noncomputable section

open scoped BigOperators

namespace Cert.Gcn

open Idealize.ShloMosaic Idealize.ShloMosaic.ValueIdx

variable {M K N : Nat}

/-- Entry (p, q) of the product: the sum over k of x[p, k] · w[k, q]. -/
def rowsTimesAt (x : FVec Ideal ⟨2, ![M, K]⟩ .f32) (w : FVec Ideal ⟨2, ![K, N]⟩ .f32) (p : Fin M) (q : Fin N) : EReal :=
  ∑ k : Fin K, x (ix2 p k) * w (ix2 k q)

/-- The matrix product of an M×K array with a K×N array. -/
def rowsTimes (x : FVec Ideal ⟨2, ![M, K]⟩ .f32) (w : FVec Ideal ⟨2, ![K, N]⟩ .f32) : FVec Ideal ⟨2, ![M, N]⟩ .f32 :=
  fun i => rowsTimesAt x w (i 0) (i 1)

theorem rowsTimes_apply (x : FVec Ideal ⟨2, ![M, K]⟩ .f32) (w : FVec Ideal ⟨2, ![K, N]⟩ .f32) (p : Fin M) (q : Fin N) :
    rowsTimes x w (ix2 p q) = ∑ k : Fin K, x (ix2 p k) * w (ix2 k q) := rfl

/-- The positive part, entry by entry. -/
def relu (x : FVec Ideal ⟨2, ![M, K]⟩ .f32) : FVec Ideal ⟨2, ![M, K]⟩ .f32 := fun i => max (x i) 0

theorem relu_apply (x : FVec Ideal ⟨2, ![M, K]⟩ .f32) (i : (⟨2, ![M, K]⟩ : Shape).Idx) : relu x i = max (x i) 0 := rfl

/-- The largest entry of row p, from -∞. -/
def rowMax (y : FVec Ideal ⟨2, ![M, N]⟩ .f32) (p : Fin M) : EReal :=
  (Finset.univ : Finset (Fin N)).fold max ⊥ (fun k => y (ix2 p k))

/-- Entry (p, q) of the row-wise log-softmax. -/
def logSoftmaxAt (y : FVec Ideal ⟨2, ![M, N]⟩ .f32) (p : Fin M) (q : Fin N) : EReal :=
  (y (ix2 p q) - rowMax y p) - Ideal.log (∑ k : Fin N, Ideal.exp (y (ix2 p k) - rowMax y p))

/-- The row-wise log-softmax of an M×N array. -/
def logSoftmaxRows (y : FVec Ideal ⟨2, ![M, N]⟩ .f32) : FVec Ideal ⟨2, ![M, N]⟩ .f32 :=
  fun i => logSoftmaxAt y (i 0) (i 1)

theorem logSoftmaxRows_apply (y : FVec Ideal ⟨2, ![M, N]⟩ .f32) (p : Fin M) (q : Fin N) :
    logSoftmaxRows y (ix2 p q) = logSoftmaxAt y p q := rfl

/-! ## A block of rows -/

variable {B : Nat}

/-- If block row p of `xb` is array row `r p` of `x`, entry (p, q) of the block's product is entry (r p, q) of the array's. -/
theorem rowsTimesAt_rows (x : FVec Ideal ⟨2, ![M, K]⟩ .f32) (xb : FVec Ideal ⟨2, ![B, K]⟩ .f32) (w : FVec Ideal ⟨2, ![K, N]⟩ .f32)
    (r : Fin B → Fin M) (h : ∀ p k, xb (ix2 p k) = x (ix2 (r p) k)) (p : Fin B) (q : Fin N) :
    rowsTimesAt xb w p q = rowsTimesAt x w (r p) q := by
  unfold rowsTimesAt
  exact Finset.sum_congr rfl fun k _ => by rw [h p k]

/-- The same for the log-softmax: it reads one row only. -/
theorem logSoftmaxAt_rows (y : FVec Ideal ⟨2, ![M, N]⟩ .f32) (yb : FVec Ideal ⟨2, ![B, N]⟩ .f32)
    (r : Fin B → Fin M) (h : ∀ p k, yb (ix2 p k) = y (ix2 (r p) k)) (p : Fin B) (q : Fin N) :
    logSoftmaxAt yb p q = logSoftmaxAt y (r p) q := by
  have hm : rowMax yb p = rowMax y (r p) := by
    unfold rowMax
    exact congrArg (fun f => (Finset.univ : Finset (Fin N)).fold max ⊥ f) (funext fun k => h p k)
  unfold logSoftmaxAt
  rw [hm, h p q]
  exact congrArg (fun s => y (ix2 (r p) q) - rowMax y (r p) - Ideal.log s)
    (Finset.sum_congr rfl fun k _ => by rw [h p k])

end Cert.Gcn

end
-- ==== Proof.LibPlainDot.lean ====
/-
  A plain matrix product read at an index, on the extended reals.

  For the dimension numbers of an M×K by K×N product (contract the left operand's axis 1 with the right operand's axis 0,
  no batch axis) the vector unit's product into a zero accumulator, and the host's `dot_general`, both hold at (p, q)
  the sum over k of L[p,k] · R[k,q]. When the right operand is a stored [N, K] matrix transposed, the entry is the
  sum over k of L[p,k] · W[q,k]. Generic in the three extents.
-/
import Idealize.ShloMosaic.PureOps.Ideal.Laws
import Idealize.ShloMosaic.Lib.ValueIdx
import Idealize.ShloMosaic.Lib.ValueLayout

noncomputable section

open scoped BigOperators

namespace Cert.PlainDot

open Idealize.ShloMosaic Idealize.ShloMosaic.ValueIdx

variable {M K N : Nat}

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem lhs1 (i : (⟨2, ![M, N]⟩ : Shape).Idx) (q : (DotDims.plain M K N).contr.Idx) :
    ((DotDims.plain M K N).lhsIdx i q 1).val = (q ⟨0, Nat.lt_of_lt_of_eq Nat.one_pos (Eq.symm (rfl : (DotDims.plain M K N).contr.rank = 1))⟩).val :=
  (DotDims.plain M K N).lhsIdx_val_of_single rfl i q

theorem rhs0 (i : (⟨2, ![M, N]⟩ : Shape).Idx) (q : (DotDims.plain M K N).contr.Idx) :
    ((DotDims.plain M K N).rhsIdx i q 0).val = (q ⟨0, Nat.lt_of_lt_of_eq Nat.one_pos (Eq.symm (rfl : (DotDims.plain M K N).contr.rank = 1))⟩).val :=
  (DotDims.plain M K N).rhsIdx_val_of_single rfl i q

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction's sum re-indexed by its one coordinate. -/
theorem sum_contr {φ₁ φ₂ : FTy} (L : FVec Ideal ⟨2, ![M, K]⟩ φ₁) (R : FVec Ideal ⟨2, ![K, N]⟩ φ₂) (p : Fin M) (q : Fin N) :
    (∑ k : (DotDims.plain M K N).contr.Idx, L ((DotDims.plain M K N).lhsIdx (ix2 p q) k) * R ((DotDims.plain M K N).rhsIdx (ix2 p q) k))
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs0 _ _
      | ⟨1, _⟩ => exact (lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs0 _ _).trans hk
      | ⟨1, _⟩ => exact rhs1 _ _)
  rw [el, er]

/-- The vector unit's product into the zero accumulator, at (p, q). -/
theorem matmul_zero_apply {φ₁ φ₂ : FTy} (prec : Option ContractPrecision) (L : FVec Ideal ⟨2, ![M, K]⟩ φ₁)
    (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply]
  exact sum_contr L R p q

/-- The host's product, at (p, q). -/
theorem dotGeneral_apply {φ₁ φ₂ : FTy} (prec : Option ContractPrecision) (sched : HostSchedule) (L : FVec Ideal ⟨2, ![M, K]⟩ φ₁)
    (R : FVec Ideal ⟨2, ![K, N]⟩ φ₂) (p : Fin M) (q : Fin N) :
    FloatOps.dotGeneral (DotDims.plain M K N) prec sched L R (ix2 p q) = ∑ k : Fin K, L (ix2 p k) * R (ix2 k q) := by
  rw [Ideal.dotGeneral_apply]
  exact sum_contr L R p q

/-- Against a stored [N, K] matrix transposed: the sum runs over the stored matrix's second coordinate. -/
theorem matmul_zero_transposed_apply {φ₁ φ₂ : FTy} (prec : Option ContractPrecision) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.matmul (DotDims.plain M K N) prec L (transpose ⟨2, ![K, N]⟩ [1, 0] W h) (constant ⟨2, ![M, N]⟩ .f32 0x00000000#32) (ix2 p q)
      = ∑ k : Fin K, L (ix2 p k) * W (ix2 q k) := by
  rw [matmul_zero_apply]
  refine Finset.sum_congr rfl fun k _ => ?_
  rw [transpose_ix2_apply]

theorem dotGeneral_transposed_apply {φ₁ φ₂ : FTy} (prec : Option ContractPrecision) (sched : HostSchedule) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.dotGeneral (DotDims.plain M K N) prec sched L (transpose ⟨2, ![K, N]⟩ [1, 0] W h) (ix2 p q)
      = ∑ k : Fin K, L (ix2 p k) * W (ix2 q k) := by
  rw [dotGeneral_apply]
  refine Finset.sum_congr rfl fun k _ => ?_
  rw [transpose_ix2_apply]

end Cert.PlainDot

end
-- ==== Proof.Region0.lean ====
/-
  The first dense stage: support1 = x · W1, computed 2000 rows at a time.

  At grid point t the body multiplies rows 2000·t … 2000·t + 1999 of x (its whole 512 columns) by the whole of W1 and
  writes the 2000×256 product as rows 2000·t … of the output. The product of a row with W1 reads that row only, so the
  block written at t is the same rows of the whole product x · W1; the 25 blocks tile the 50000 rows. The narrowing of
  both operands to bf16 before the multiplication changes nothing on the extended reals.
-/
import proofs.«147804_j44306882625585_1_alg».proof.Proof.Gen.KernelIdeal.Frame
import proofs.«147804_j44306882625585_1_alg».proof.Proof.Spec
import proofs.«147804_j44306882625585_1_alg».proof.Proof.LibPlainDot
import Idealize.ShloMosaic.Lib.Pipeline.Value
import Idealize.ShloMosaic.Lib.ValueIdx

set_option maxRecDepth 16384

noncomputable section

open scoped BigOperators

namespace Cert.KernelIdeal.Stage0

open Cert.KernelIdeal Cert.KernelIdeal.Gen Idealize.ShloMosaic Idealize.ShloMosaic.TcCoe Idealize.ShloMosaic.ValueIdx
open Idealize.ShloMosaic.Pipeline (Dat Cfg Window)
open Cert.Gcn

/-- The body's stored value at (p, q): the sum over k of (block of x)[p, k] · W1[k, q]. -/
theorem payload_apply (xb : Vec Ideal S2000x512 .f32) (wb : Vec Ideal S512x256 .f32) (p : Fin 2000) (q : Fin 256) :
    k0_pay1 (F := Ideal) xb wb (ix2 p q) = rowsTimesAt (M := 2000) (K := 512) (N := 256) xb wb p q := by
  unfold k0_pay1
  exact Cert.PlainDot.matmul_zero_apply (M := 2000) (K := 512) (N := 256) none _ _ p q

theorem zeros : (![0, 0] : Fin 2 → Nat) = fun _ => 0 := funext fun a => by fin_cases a <;> rfl

/-- Where the blocks sit: the block of x and the block of the output at point t start at row 2000·t, column 0; W1 is
    taken whole at every point. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The two operands as region 0 finds them. -/
abbrev xArr (c : Dev nD) : FVec Ideal ⟨2, ![50000, 512]⟩ .f32 := V c main_arg0
abbrev wArr (c : Dev nD) : FVec Ideal ⟨2, ![512, 256]⟩ .f32 := V c main_arg4

/-- The row of the array that row p of block t is. -/
def rowOf (t : Fin cfg0.N) (p : Fin 2000) : Fin 50000 := ⟨t.val * 2000 + p.val, by have := t.isLt; have := p.isLt; show _ < 50000; have h : t.val < 25 := t.isLt; omega⟩

/-- The block of x at point t, read at (p, k), is x at row 2000·t + p. -/
theorem xblock_apply (c : Dev nD) (t : Fin cfg0.N) (p : Fin 2000) (k : Fin 512) :
    iblk0 V c 0 t (ix2 p k) = xArr V c (ix2 (rowOf t p) k) := by
  obtain ⟨e0, e1, -, -, -, -⟩ := index_facts t
  show V c main_arg0 (((cfg0.win 0).blk t).view.emb (ix2 p k)) = V c main_arg0 (ix2 (rowOf t p) k)
  refine congrArg (V c main_arg0) ?_
  funext a; apply Fin.ext
  match a with
  | ⟨0, _⟩ => show win0_0.index t (0 : Fin 2) * 2000 + 1 * p.val = t.val * 2000 + p.val; omega
  | ⟨1, _⟩ => show win0_0.index t (1 : Fin 2) * 512 + 1 * k.val = k.val; omega

/-- The block of W1 at any point is W1. -/
theorem wblock_apply (c : Dev nD) (t : Fin cfg0.N) (k : Fin 512) (q : Fin 256) :
    iblk0 V c 1 t (ix2 k q) = wArr V c (ix2 k q) := by
  obtain ⟨-, -, e2, e3, -, -⟩ := index_facts t
  show V c main_arg4 (((cfg0.win 1).blk t).view.emb (ix2 k q)) = V c main_arg4 (ix2 k q)
  refine congrArg (V c main_arg4) ?_
  funext a; apply Fin.ext
  match a with
  | ⟨0, _⟩ => show win0_1.index t (0 : Fin 2) * 512 + 1 * k.val = k.val; omega
  | ⟨1, _⟩ => show win0_1.index t (1 : Fin 2) * 256 + 1 * q.val = q.val; omega

/-- What point t writes back is block t of x · W1. -/
theorem flushed_eq (c : Dev nD) (t : Fin cfg0.N) :
    (dat0 V c).flushed 2 t = ((cfg0.win 2).blk t).view.read (Elt Ideal) (rowsTimes (xArr V c) (wArr V c)) := by
  show (cfg0.win 2).cut (grid0.coords t) ((dat0 V c).after 2 t) = _
  rw [after0_2]
  unfold out0_2
  rw [View.canon_unit_zero zeros]
  simp only [View.ld_unit_zero (S := S2000x512) zeros, View.ld_unit_zero (S := S512x256) zeros]
  obtain ⟨-, -, -, -, e4, e5⟩ := index_facts t
  funext j
  obtain ⟨p, q, rfl⟩ : ∃ (p : Fin 2000) (q : Fin 256), j = ix2 p q := ⟨j 0, j 1, eq_ix2 j⟩
  show k0_pay1 (F := Ideal) (iblk0 V c 0 t) (iblk0 V c 1 t) (ix2 p q)
    = rowsTimes (xArr V c) (wArr V c) (((cfg0.win 2).blk t).view.emb (ix2 p q))
  have hemb : ((cfg0.win 2).blk t).view.emb (ix2 p q) = ix2 (rowOf t p) q := by
    funext a; apply Fin.ext
    match a with
    | ⟨0, _⟩ => show win0_2.index t (0 : Fin 2) * 2000 + 1 * p.val = t.val * 2000 + p.val; omega
    | ⟨1, _⟩ => show win0_2.index t (1 : Fin 2) * 256 + 1 * q.val = q.val; omega
  rw [hemb, rowsTimes_apply]
  refine (payload_apply (iblk0 V c 0 t) (iblk0 V c 1 t) p q).trans ?_
  unfold rowsTimesAt
  exact Finset.sum_congr rfl fun k _ => by rw [xblock_apply V c t p k, wblock_apply V c t k q]

/-- An index of the output is in point t's block iff each coordinate is in the block's range on its axis. -/
theorem mem_block (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v0).slice (win0_2.rect t)).set ↔ _
  rw [View.set_slice_whole, Rect.mem_set_unit]
  exact Iff.rfl

/-- Every row lies in the block of the point row / 2000. -/
theorem covered (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  let t : Fin cfg0.N := ⟨(i 0).val / 2000, by show _ < 25; omega⟩
  obtain ⟨-, -, -, -, e4, e5⟩ := index_facts t
  have ht : t.val = (i 0).val / 2000 := rfl
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- After region 0 its output array holds x · W1. -/
theorem final (c : Dev nD) : (dat0 V c).arrAt 2 cfg0.N = rowsTimes (xArr V c) (wArr V c) :=
  (dat0 V c).arrAt_eq_of_cover 2 (rowsTimes (xArr V c) (wArr V c)) (fun t _ => flushed_eq V c t) covered

end Cert.KernelIdeal.Stage0

end
-- ==== Proof.Region1.lean ====
/-
  The second dense stage: support2 = relu(h1) · W2, computed 5000 rows at a time.

  At grid point t the body takes rows 5000·t … 5000·t + 4999 of h1 (its whole 256 columns), replaces each entry by its
  positive part, multiplies by the whole of W2 and writes the 5000×40 product as the same rows of the output. The
  positive part is entry by entry and the product of a row with W2 reads that row only, so the block written at t is the
  same rows of relu(h1) · W2; the 10 blocks tile the 50000 rows. The narrowing of both operands to bf16 changes nothing
  on the extended reals.
-/
import proofs.«147804_j44306882625585_1_alg».proof.Proof.Gen.KernelIdeal.Frame
import proofs.«147804_j44306882625585_1_alg».proof.Proof.Spec
import proofs.«147804_j44306882625585_1_alg».proof.Proof.LibPlainDot
import Idealize.ShloMosaic.Lib.Pipeline.Value
import Idealize.ShloMosaic.Lib.ValueIdx

set_option maxRecDepth 16384

noncomputable section

open scoped BigOperators

namespace Cert.KernelIdeal.Stage1

open Cert.KernelIdeal Cert.KernelIdeal.Gen Idealize.ShloMosaic Idealize.ShloMosaic.TcCoe Idealize.ShloMosaic.ValueIdx
open Idealize.ShloMosaic.Pipeline (Dat Cfg Window)
open Cert.Gcn

/-- The body's stored value at (p, q): the sum over k of max((block of h1)[p, k], 0) · W2[k, q]. -/
theorem payload_apply (hb : Vec Ideal S5000x256 .f32) (wb : Vec Ideal S256x40 .f32) (p : Fin 5000) (q : Fin 40) :
    k1_pay1 (F := Ideal) hb wb (ix2 p q) = rowsTimesAt (M := 5000) (K := 256) (N := 40) (relu hb) wb p q := by
  unfold k1_pay1
  refine (Cert.PlainDot.matmul_zero_apply (M := 5000) (K := 256) (N := 40) none _ _ p q).trans ?_
  unfold rowsTimesAt
  refine Finset.sum_congr rfl fun k _ => ?_
  show max (shapeCast S5000x256 hb shapeCasts_S5000x256_S5000x256 (ix2 p k)) (Ideal.ofBits .f32 0x00000000#32) * wb (ix2 k q)
    = max (hb (ix2 p k)) 0 * wb (ix2 k q)
  rw [shapeCast_self, Ideal.ofBits_zero_f32]

theorem zeros : (![0, 0] : Fin 2 → Nat) = fun _ => 0 := funext fun a => by fin_cases a <;> rfl

/-- Where the blocks sit: the block of h1 and the block of the output at point t start at row 5000·t, column 0; W2 is
    taken whole at every point. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- The two operands as region 1 finds them. -/
abbrev hArr (c : Dev nD) : FVec Ideal ⟨2, ![50000, 256]⟩ .f32 := V c main_v16
abbrev wArr (c : Dev nD) : FVec Ideal ⟨2, ![256, 40]⟩ .f32 := V c main_arg6

/-- The row of the array that row p of block t is. -/
def rowOf (t : Fin cfg1.N) (p : Fin 5000) : Fin 50000 := ⟨t.val * 5000 + p.val, by have hp := p.isLt; have h : t.val < 10 := t.isLt; omega⟩

/-- The block of h1 at point t, read at (p, k), is h1 at row 5000·t + p. -/
theorem hblock_apply (c : Dev nD) (t : Fin cfg1.N) (p : Fin 5000) (k : Fin 256) :
    iblk1 V c 0 t (ix2 p k) = hArr V c (ix2 (rowOf t p) k) := by
  obtain ⟨e0, e1, -, -, -, -⟩ := index_facts t
  show V c main_v16 (((cfg1.win 0).blk t).view.emb (ix2 p k)) = V c main_v16 (ix2 (rowOf t p) k)
  refine congrArg (V c main_v16) ?_
  funext a; apply Fin.ext
  match a with
  | ⟨0, _⟩ => show win1_0.index t (0 : Fin 2) * 5000 + 1 * p.val = t.val * 5000 + p.val; omega
  | ⟨1, _⟩ => show win1_0.index t (1 : Fin 2) * 256 + 1 * k.val = k.val; omega

/-- The block of W2 at any point is W2. -/
theorem wblock_apply (c : Dev nD) (t : Fin cfg1.N) (k : Fin 256) (q : Fin 40) :
    iblk1 V c 1 t (ix2 k q) = wArr V c (ix2 k q) := by
  obtain ⟨-, -, e2, e3, -, -⟩ := index_facts t
  show V c main_arg6 (((cfg1.win 1).blk t).view.emb (ix2 k q)) = V c main_arg6 (ix2 k q)
  refine congrArg (V c main_arg6) ?_
  funext a; apply Fin.ext
  match a with
  | ⟨0, _⟩ => show win1_1.index t (0 : Fin 2) * 256 + 1 * k.val = k.val; omega
  | ⟨1, _⟩ => show win1_1.index t (1 : Fin 2) * 40 + 1 * q.val = q.val; omega

/-- What point t writes back is block t of relu(h1) · W2. -/
theorem flushed_eq (c : Dev nD) (t : Fin cfg1.N) :
    (dat1 V c).flushed 2 t = ((cfg1.win 2).blk t).view.read (Elt Ideal) (rowsTimes (relu (hArr V c)) (wArr V c)) := by
  show (cfg1.win 2).cut (grid1.coords t) ((dat1 V c).after 2 t) = _
  rw [after1_2]
  unfold out1_2
  rw [View.canon_unit_zero zeros]
  simp only [View.ld_unit_zero (S := S5000x256) zeros, View.ld_unit_zero (S := S256x40) zeros]
  obtain ⟨-, -, -, -, e4, e5⟩ := index_facts t
  funext j
  obtain ⟨p, q, rfl⟩ : ∃ (p : Fin 5000) (q : Fin 40), j = ix2 p q := ⟨j 0, j 1, eq_ix2 j⟩
  show k1_pay1 (F := Ideal) (iblk1 V c 0 t) (iblk1 V c 1 t) (ix2 p q)
    = rowsTimes (relu (hArr V c)) (wArr V c) (((cfg1.win 2).blk t).view.emb (ix2 p q))
  have hemb : ((cfg1.win 2).blk t).view.emb (ix2 p q) = ix2 (rowOf t p) q := by
    funext a; apply Fin.ext
    match a with
    | ⟨0, _⟩ => show win1_2.index t (0 : Fin 2) * 5000 + 1 * p.val = t.val * 5000 + p.val; omega
    | ⟨1, _⟩ => show win1_2.index t (1 : Fin 2) * 40 + 1 * q.val = q.val; omega
  rw [hemb, rowsTimes_apply]
  refine (payload_apply (iblk1 V c 0 t) (iblk1 V c 1 t) p q).trans ?_
  unfold rowsTimesAt
  exact Finset.sum_congr rfl fun k _ => by rw [relu_apply, relu_apply, hblock_apply V c t p k, wblock_apply V c t k q]

/-- An index of the output is in point t's block iff each coordinate is in the block's range on its axis. -/
theorem mem_block (t : Fin cfg1.N) (i : S50000x40.Idx) :
    i ∈ ((cfg1.win 2).blk t).view.set ↔ ∀ a : Fin 2, win1_2.index t a * S5000x40.size a ≤ (i a).val ∧ (i a).val < win1_2.index t a * S5000x40.size a + S5000x40.size a := by
  show i ∈ ((View.whole main_v17).slice (win1_2.rect t)).set ↔ _
  rw [View.set_slice_whole, Rect.mem_set_unit]
  exact Iff.rfl

/-- Every row lies in the block of the point row / 5000. -/
theorem covered (i : S50000x40.Idx) : ∃ t : Fin cfg1.N, (cfg1.win 2).flush t = true ∧ i ∈ ((cfg1.win 2).blk t).view.set := by
  have hi0 : (i 0).val < 50000 := (i 0).isLt
  have hi1 : (i 1).val < 40 := (i 1).isLt
  let t : Fin cfg1.N := ⟨(i 0).val / 5000, by show _ < 10; omega⟩
  obtain ⟨-, -, -, -, e4, e5⟩ := index_facts t
  have ht : t.val = (i 0).val / 5000 := rfl
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 40 ≤ (i 1).val ∧ (i 1).val < win1_2.index t (1 : Fin 2) * 40 + 40; omega

/-- After region 1 its output array holds relu(h1) · W2. -/
theorem final (c : Dev nD) : (dat1 V c).arrAt 2 cfg1.N = rowsTimes (relu (hArr V c)) (wArr V c) :=
  (dat1 V c).arrAt_eq_of_cover 2 (rowsTimes (relu (hArr V c)) (wArr V c)) (fun t _ => flushed_eq V c t) covered

end Cert.KernelIdeal.Stage1

end
-- ==== Proof.LibRows.lean ====
/-
  Arrays of n rows and c columns read row by row.

  A reduction along the second axis, read at row p, ranges over the columns k of that row: the source index over the
  reduced index (p) with the coordinate k inserted is (p, k). So a kernel's multi_reduction and the host's reduce
  over axis 1 are, at row p, the sum (the largest, the smallest) of the row's entries x (p, k), k : Fin c.
  A unit-stride slice that drops the first or the last column reads the row shifted or unshifted, and a concatenation
  of fifteen columns of shape [n, 1] along axis 1 reads, at (p, j), column j at (p, 0).
-/
import Idealize.ShloMosaic.Lib.ValueIdx
import Idealize.ShloMosaic.Lib.Pipeline.Value
import Idealize.ShloMosaic.PureOps.Ideal.Laws

noncomputable section

open scoped BigOperators

namespace Idealize.ShloMosaic.Rows

open Idealize.ShloMosaic Idealize.ShloMosaic.ValueIdx

variable {n c : ℕ} {φ : FTy}

/-- Over row p, the source index with column k inserted is (p, k). -/
theorem lift_row (h : (⟨2, ![n, c]⟩ : Shape).Reduces [1] ⟨1, ![n]⟩) (p : Fin n) (k : Fin c) :
    h.lift (ix1 p) k = ix2 p k := by
  funext a
  apply Fin.ext
  show h.liftVal (ix1 p) k.val a = _
  match a with
  | ⟨0, _⟩ => simp [Shape.Reduces.liftVal]
  | ⟨1, _⟩ => simp [Shape.Reduces.liftVal]

/-- A kernel's sum along the columns, at row p. -/
theorem mredAdd_row (src : FVec Ideal ⟨2, ![n, c]⟩ φ) (acc : BitVec φ.bits)
    (h : (⟨2, ![n, c]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin c, src (ix2 p k) := by
  rw [Ideal.multiReduction_add_single]
  exact Finset.sum_congr rfl fun k _ => congrArg src (lift_row h p k)

/-- A kernel's maximum along the columns, at row p. -/
theorem mredMax_row (src : FVec Ideal ⟨2, ![n, c]⟩ φ) (acc : BitVec φ.bits)
    (h : (⟨2, ![n, c]⟩ : Shape).Reduces [1] ⟨1, ![n]⟩) (hφ : FKind.Formats φ) (hacc : acc = FKind.maximumf.neutral φ hφ)
    (p : Fin n) :
    multiReduction .maximumf [1] ⟨1, ![n]⟩ src acc h hφ hacc (ix1 p)
      = (Finset.univ : Finset (Fin c)).fold max (Ideal.ofBits φ acc) (fun k => src (ix2 p k)) := by
  rw [Ideal.multiReduction_maximumf_single]
  have e : (src ∘ h.lift (ix1 p)) = fun k : Fin c => src (ix2 p k) := funext fun k => congrArg src (lift_row h p k)
  rw [e]
  rfl

/-- A kernel's minimum along the columns, at row p. -/
theorem mredMin_row (src : FVec Ideal ⟨2, ![n, c]⟩ φ) (acc : BitVec φ.bits)
    (h : (⟨2, ![n, c]⟩ : Shape).Reduces [1] ⟨1, ![n]⟩) (hφ : FKind.Formats φ) (hacc : acc = FKind.minimumf.neutral φ hφ)
    (p : Fin n) :
    multiReduction .minimumf [1] ⟨1, ![n]⟩ src acc h hφ hacc (ix1 p)
      = (Finset.univ : Finset (Fin c)).fold min (Ideal.ofBits φ acc) (fun k => src (ix2 p k)) := by
  rw [multiReduction_minimumf_eq_fold, h.fold_filter_drop_single]
  have e : (src ∘ h.lift (ix1 p)) = fun k : Fin c => src (ix2 p k) := funext fun k => congrArg src (lift_row h p k)
  rw [e]
  rfl

/-- The host's sum along the columns, at row p: the initial value plus the row's sum. -/
theorem hredAdd_row (x : FVec Ideal ⟨2, ![n, c]⟩ φ) {u : Shape} (v : u.Idx → Ideal φ)
    (h' : (⟨2, ![n, c]⟩ : Shape).ReducesTo [1] ⟨1, ![n]⟩) (h : (⟨2, ![n, c]⟩ : Shape).Reduces [1] ⟨1, ![n]⟩)
    (hu : 0 < u.numel) (p : Fin n) :
    Host.reduceAdd x v h' hu (ix1 p) = v (Shape.Idx.first hu) + ∑ k : Fin c, x (ix2 p k) := by
  show Ideal.hostReduceAdd h' x (v (Shape.Idx.first hu)) (ix1 p) = _
  rw [Ideal.hostReduceAdd_single h' h]
  exact congrArg (v (Shape.Idx.first hu) + ·) (Finset.sum_congr rfl fun k _ => congrArg x (lift_row h p k))

/-- The host's maximum along the columns, at row p. -/
theorem hredMax_row (x : FVec Ideal ⟨2, ![n, c]⟩ φ) {u : Shape} (v : u.Idx → Ideal φ)
    (h' : (⟨2, ![n, c]⟩ : Shape).ReducesTo [1] ⟨1, ![n]⟩) (h : (⟨2, ![n, c]⟩ : Shape).Reduces [1] ⟨1, ![n]⟩)
    (hu : 0 < u.numel) (p : Fin n) :
    Host.reduce FloatOps.maximumf x v h' hu (ix1 p)
      = (Finset.univ : Finset (Fin c)).fold max (v (Shape.Idx.first hu)) (fun k => x (ix2 p k)) := by
  rw [Host.reduce_eq_fold_single FloatOps.maximumf x v h' h hu]
  have e : (x ∘ h.lift (ix1 p)) = fun k : Fin c => x (ix2 p k) := funext fun k => congrArg x (lift_row h p k)
  rw [e]
  rfl

/-- The host's minimum along the columns, at row p. -/
theorem hredMin_row (x : FVec Ideal ⟨2, ![n, c]⟩ φ) {u : Shape} (v : u.Idx → Ideal φ)
    (h' : (⟨2, ![n, c]⟩ : Shape).ReducesTo [1] ⟨1, ![n]⟩) (h : (⟨2, ![n, c]⟩ : Shape).Reduces [1] ⟨1, ![n]⟩)
    (hu : 0 < u.numel) (p : Fin n) :
    Host.reduce FloatOps.minimumf x v h' hu (ix1 p)
      = (Finset.univ : Finset (Fin c)).fold min (v (Shape.Idx.first hu)) (fun k => x (ix2 p k)) := by
  rw [Host.reduce_eq_fold_single FloatOps.minimumf x v h' h hu]
  have e : (x ∘ h.lift (ix1 p)) = fun k : Fin c => x (ix2 p k) := funext fun k => congrArg x (lift_row h p k)
  rw [e]
  rfl

variable {α : Type}

/-- The slice that drops the first column reads the row one to the right. -/
theorem slice_succ (x : (⟨2, ![n, c + 1]⟩ : Shape).Idx → α)
    (h : (⟨2, ![n, c + 1]⟩ : Shape).Slices ![0, 1] ⟨2, ![n, c]⟩) (p : Fin n) (k : Fin c) :
    extractStridedSlice ⟨2, ![n, c]⟩ ![0, 1] x h (ix2 p k) = x (ix2 p k.succ) :=
  extractStridedSlice_apply _ x h _ _ fun a => by
    match a with
    | ⟨0, _⟩ => show p.val = 0 + p.val; omega
    | ⟨1, _⟩ => show k.val + 1 = 1 + k.val; omega

/-- The slice that drops the last column reads the row in place. -/
theorem slice_castSucc (x : (⟨2, ![n, c + 1]⟩ : Shape).Idx → α)
    (h : (⟨2, ![n, c + 1]⟩ : Shape).Slices ![0, 0] ⟨2, ![n, c]⟩) (p : Fin n) (k : Fin c) :
    extractStridedSlice ⟨2, ![n, c]⟩ ![0, 0] x h (ix2 p k) = x (ix2 p k.castSucc) :=
  extractStridedSlice_apply _ x h _ _ fun a => by
    match a with
    | ⟨0, _⟩ => show p.val = 0 + p.val; omega
    | ⟨1, _⟩ => show k.val = 0 + k.val; omega

/-- Fifteen columns [n, 1] laid side by side: entry (p, j) is column j at (p, 0). -/
theorem concat15_apply (f : Fin 15 → ((⟨2, ![n, 1]⟩ : Shape).Idx → α))
    (h : Shape.Concatenates ((List.ofFn fun i : Fin 15 => (⟨⟨2, ![n, 1]⟩, f i⟩ : (s : Shape) × (s.Idx → α))).map (·.1))
      ⟨2, ![n, 15]⟩ 1)
    (p : Fin n) (j : Fin 15) :
    concatenate ⟨2, ![n, 15]⟩ 1 (List.ofFn fun i : Fin 15 => (⟨⟨2, ![n, 1]⟩, f i⟩ : (s : Shape) × (s.Idx → α))) h (ix2 p j)
      = f j (ix2 p (0 : Fin 1)) :=
  concatenate_ofFn_unit_apply (t := ⟨2, ![n, 15]⟩) (s₁ := ⟨2, ![n, 1]⟩) 1 f h rfl rfl (ix2 p j) j rfl (ix2 p (0 : Fin 1))
    (fun b hb => by
      match b with
      | ⟨0, _⟩ => rfl
      | ⟨1, _⟩ => exact absurd rfl hb)

end Idealize.ShloMosaic.Rows

end
-- ==== Proof.LibColumn.lean ====
/-
  A vector of length `a` laid out as a column `[a, 1]`, read at an index.

  Two host operations produce the same column from a vector `x`: a reshape `[a] → [a, 1]` (row-major position
  `i * 1 + 0 = i`) and a `broadcast_in_dim` along axis `0` into `[a, 1]` (the new axis has extent one, so nothing is
  repeated). Both read `x i` at `(i, u)`, whatever the unit coordinate `u`; hence the two columns are equal as arrays.
  A column broadcast along its unit axis to `[a, b]` (the kernel-side `vector.broadcast`, the host's
  `broadcast_in_dim` along both axes) reads the column at `(i, 0)`.
-/
import Idealize.ShloMosaic.Lib.ValueIdx
import Idealize.ShloMosaic.Lib.Pipeline.Value

namespace Idealize.ShloMosaic.Column

open Idealize.ShloMosaic Idealize.ShloMosaic.ValueIdx

variable {α : Type}

/-- The reshape `[a] → [a, 1]` at `(i, u)` is the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The `broadcast_in_dim` of a vector along axis `0` into `[a, 1]`, at `(i, u)`, is the vector at `i`
    (for `a ≠ 1`; the extent-one case reads index `0`, which is again `i`). -/
theorem broadcastInDim_a_a1_apply {a : ℕ} (x : (⟨1, ![a]⟩ : Shape).Idx → α)
    (dims : Fin 1 → Fin 2) (hd : dims 0 = 0)
    (h : (⟨1, ![a]⟩ : Shape).BroadcastsInDim ⟨2, ![a, 1]⟩ dims)
    (i : Fin a) (u : Fin 1) : broadcastInDim ⟨2, ![a, 1]⟩ dims h x (ix2 i u) = x (ix1 i) := by
  refine broadcastInDim_apply dims h x (ix2 i u) (ix1 i) ?_
  intro d
  match d with
  | ⟨0, _⟩ =>
    show i.val = if a = 1 then 0 else ((ix2 i u : (⟨2, ![a, 1]⟩ : Shape).Idx) (dims 0)).val
    rw [hd]
    by_cases h1 : a = 1
    · rw [if_pos h1]; have := i.isLt; omega
    · rw [if_neg h1]

/-- So the two columns are one array. -/
theorem shapeCast_eq_broadcastInDim {a : ℕ} (x : (⟨1, ![a]⟩ : Shape).Idx → α)
    (hs : (⟨1, ![a]⟩ : Shape).ShapeCasts ⟨2, ![a, 1]⟩)
    (dims : Fin 1 → Fin 2) (hd : dims 0 = 0)
    (hb : (⟨1, ![a]⟩ : Shape).BroadcastsInDim ⟨2, ![a, 1]⟩ dims) :
    shapeCast ⟨2, ![a, 1]⟩ x hs = broadcastInDim ⟨2, ![a, 1]⟩ dims hb x := by
  funext j
  obtain ⟨p, q, rfl⟩ : ∃ (p : Fin a) (q : Fin 1), j = ix2 p q := ⟨j 0, j 1, eq_ix2 j⟩
  rw [shapeCast_a_a1_apply, broadcastInDim_a_a1_apply x dims hd]

/-- A column `[a, 1]` broadcast to `[a, b]` (a kernel's `vector.broadcast`) reads, at `(i, j)`, the column at `(i, 0)`
    (for `a ≠ 1`). -/
theorem broadcastTo_a1_ab_apply {a b : ℕ} (ha : a ≠ 1) (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) := by
  refine broadcastTo_apply x h (ix2 i j) (ix2 i (0 : Fin 1)) ?_
  intro d
  match d with
  | ⟨0, _⟩ => show i.val = if a = 1 then 0 else i.val; rw [if_neg ha]
  | ⟨1, _⟩ => show 0 = if (1 : ℕ) = 1 then 0 else j.val; rw [if_pos rfl]

/-- The host's `broadcast_in_dim` of a column `[a, 1]` along both axes into `[a, b]` reads the same (for `a ≠ 1`). -/
theorem broadcastInDim_a1_ab_apply {a b : ℕ} (ha : a ≠ 1) (x : (⟨2, ![a, 1]⟩ : Shape).Idx → α)
    (dims : Fin 2 → Fin 2) (hd0 : dims 0 = 0) (hd1 : dims 1 = 1)
    (h : (⟨2, ![a, 1]⟩ : Shape).BroadcastsInDim ⟨2, ![a, b]⟩ dims) (i : Fin a) (j : Fin b) :
    broadcastInDim ⟨2, ![a, b]⟩ dims h x (ix2 i j) = x (ix2 i (0 : Fin 1)) := by
  refine broadcastInDim_apply dims h x (ix2 i j) (ix2 i (0 : Fin 1)) ?_
  intro d
  match d with
  | ⟨0, _⟩ =>
    show i.val = if a = 1 then 0 else ((ix2 i j : (⟨2, ![a, b]⟩ : Shape).Idx) (dims 0)).val
    rw [hd0, if_neg ha]
  | ⟨1, _⟩ =>
    show 0 = if (1 : ℕ) = 1 then 0 else ((ix2 i j : (⟨2, ![a, b]⟩ : Shape).Idx) (dims 1)).val
    rw [if_pos rfl]

end Idealize.ShloMosaic.Column
-- ==== Proof.LogSoftmax.lean ====
/-
  The row-wise log-softmax in its two spellings, read at an index.

  The kernel's: a maximum along the columns from -∞, the result reshaped to a column and broadcast back, a subtraction,
  an exponential, a sum along the columns, its logarithm as a column broadcast back, a second subtraction.
  The host's: the same, the two columns made by broadcast_in_dim, and the row maximum passed once more through a
  maximum with -∞, which leaves it as it is (-∞ is the least extended real).
  Both are, at (p, q), (y[p,q] - m_p) - log Σ_k exp(y[p,k] - m_p) with m_p the largest entry of row p.
-/
import proofs.«147804_j44306882625585_1_alg».proof.Proof.Spec
import proofs.«147804_j44306882625585_1_alg».proof.Proof.LibRows
import proofs.«147804_j44306882625585_1_alg».proof.Proof.LibColumn

noncomputable section

open scoped BigOperators

namespace Cert.Gcn

open Idealize.ShloMosaic Idealize.ShloMosaic.ValueIdx

/-- The word 0xFF800000 denotes -∞. -/
theorem negInf_eq_bot : Ideal.ofBits .f32 0xFF800000#32 = (⊥ : EReal) := by simp [Ideal.ofBits, Ideal.ieee]

variable {n c : Nat}

/-! ## The kernel's spelling -/

/-- A vector reshaped to a column and broadcast along the columns reads the vector at the row. -/
theorem column_of_vector_apply (hn : n ≠ 1) (v : FVec Ideal ⟨1, ![n]⟩ .f32)
    (hc : (⟨1, ![n]⟩ : Shape).ShapeCasts ⟨2, ![n, 1]⟩) (hb : (⟨2, ![n, 1]⟩ : Shape).Broadcasts ⟨2, ![n, c]⟩)
    (p : Fin n) (q : Fin c) :
    broadcastTo ⟨2, ![n, c]⟩ (shapeCast ⟨2, ![n, 1]⟩ v hc) hb (ix2 p q) = v (ix1 p) := by
  rw [Column.broadcastTo_a1_ab_apply hn, Column.shapeCast_a_a1_apply]

/-- The same with a logarithm taken on the column. -/
theorem log_column_of_vector_apply (hn : n ≠ 1) (v : FVec Ideal ⟨1, ![n]⟩ .f32)
    (hc : (⟨1, ![n]⟩ : Shape).ShapeCasts ⟨2, ![n, 1]⟩) (hb : (⟨2, ![n, 1]⟩ : Shape).Broadcasts ⟨2, ![n, c]⟩)
    (p : Fin n) (q : Fin c) :
    broadcastTo ⟨2, ![n, c]⟩ (log (shapeCast ⟨2, ![n, 1]⟩ v hc)) hb (ix2 p q) = Ideal.log (v (ix1 p)) := by
  rw [Column.broadcastTo_a1_ab_apply hn]
  show Ideal.log (shapeCast ⟨2, ![n, 1]⟩ v hc (ix2 p (0 : Fin 1))) = _
  rw [Column.shapeCast_a_a1_apply]

/-- The kernel's row maximum from -∞ is `rowMax`. -/
theorem kernel_rowMax (y : FVec Ideal ⟨2, ![n, c]⟩ .f32) (hr : (⟨2, ![n, c]⟩ : Shape).Reduces [1] ⟨1, ![n]⟩)
    (hφ : FKind.Formats .f32) (hacc : (0xFF800000#32 : BitVec 32) = FKind.maximumf.neutral .f32 hφ) (p : Fin n) :
    multiReduction .maximumf [1] ⟨1, ![n]⟩ y 0xFF800000#32 hr hφ hacc (ix1 p) = rowMax y p := by
  rw [Rows.mredMax_row, negInf_eq_bot]
  rfl

/-- The kernel's shifted row: y[p, q] - m_p. -/
theorem kernel_shift_apply (hn : n ≠ 1) (y : FVec Ideal ⟨2, ![n, c]⟩ .f32) (hr : (⟨2, ![n, c]⟩ : Shape).Reduces [1] ⟨1, ![n]⟩)
    (hφ : FKind.Formats .f32) (hacc : (0xFF800000#32 : BitVec 32) = FKind.maximumf.neutral .f32 hφ)
    (hc : (⟨1, ![n]⟩ : Shape).ShapeCasts ⟨2, ![n, 1]⟩) (hb : (⟨2, ![n, 1]⟩ : Shape).Broadcasts ⟨2, ![n, c]⟩)
    (p : Fin n) (q : Fin c) :
    subf y (broadcastTo ⟨2, ![n, c]⟩ (shapeCast ⟨2, ![n, 1]⟩ (multiReduction .maximumf [1] ⟨1, ![n]⟩ y 0xFF800000#32 hr hφ hacc) hc) hb) (ix2 p q)
      = y (ix2 p q) - rowMax y p := by
  rw [subf_apply, column_of_vector_apply hn, kernel_rowMax]

/-- The kernel's log-softmax at (p, q). -/
theorem kernel_logSoftmax_apply (hn : n ≠ 1) (y : FVec Ideal ⟨2, ![n, c]⟩ .f32) (hr : (⟨2, ![n, c]⟩ : Shape).Reduces [1] ⟨1, ![n]⟩)
    (hφ : FKind.Formats .f32) (hmax : (0xFF800000#32 : BitVec 32) = FKind.maximumf.neutral .f32 hφ)
    (hadd : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, c]⟩)
    (p : Fin n) (q : Fin c) :
    subf (subf y (broadcastTo ⟨2, ![n, c]⟩ (shapeCast ⟨2, ![n, 1]⟩ (multiReduction .maximumf [1] ⟨1, ![n]⟩ y 0xFF800000#32 hr hφ hmax) hc) hb))
      (broadcastTo ⟨2, ![n, c]⟩ (log (shapeCast ⟨2, ![n, 1]⟩
        (multiReduction .add [1] ⟨1, ![n]⟩
          (exp (subf y (broadcastTo ⟨2, ![n, c]⟩ (shapeCast ⟨2, ![n, 1]⟩ (multiReduction .maximumf [1] ⟨1, ![n]⟩ y 0xFF800000#32 hr hφ hmax) hc) hb)))
          0x00000000#32 hr hφ hadd) hc)) hb) (ix2 p q)
      = logSoftmaxAt y p q := by
  rw [subf_apply, kernel_shift_apply hn, log_column_of_vector_apply hn, Rows.mredAdd_row]
  unfold logSoftmaxAt
  refine congrArg (fun s => y (ix2 p q) - rowMax y p - Ideal.log s) (Finset.sum_congr rfl fun k _ => ?_)
  show Ideal.exp (subf y _ (ix2 p k)) = _
  rw [kernel_shift_apply hn]

/-! ## The host's spelling -/

/-- A vector broadcast to a column and then along the columns reads the vector at the row. -/
theorem host_column_of_vector_apply (hn : n ≠ 1) (v : FVec Ideal ⟨1, ![n]⟩ .f32)
    (d1 : Fin 1 → Fin 2) (hd1 : d1 0 = 0) (h1 : (⟨1, ![n]⟩ : Shape).BroadcastsInDim ⟨2, ![n, 1]⟩ d1)
    (d2 : Fin 2 → Fin 2) (hd20 : d2 0 = 0) (hd21 : d2 1 = 1) (h2 : (⟨2, ![n, 1]⟩ : Shape).BroadcastsInDim ⟨2, ![n, c]⟩ d2)
    (p : Fin n) (q : Fin c) :
    broadcastInDim ⟨2, ![n, c]⟩ d2 h2 (broadcastInDim ⟨2, ![n, 1]⟩ d1 h1 v) (ix2 p q) = v (ix1 p) := by
  rw [Column.broadcastInDim_a1_ab_apply hn _ d2 hd20 hd21, Column.broadcastInDim_a_a1_apply v d1 hd1]

/-- The host's row maximum from -∞, passed once more through a maximum with -∞, is `rowMax`. -/
theorem host_rowMax (y : FVec Ideal ⟨2, ![n, c]⟩ .f32) (h' : (⟨2, ![n, c]⟩ : Shape).ReducesTo [1] ⟨1, ![n]⟩)
    (hr : (⟨2, ![n, c]⟩ : Shape).Reduces [1] ⟨1, ![n]⟩) {u : Shape} (hu : 0 < u.numel)
    (d0 : Fin u.rank → Fin 1) (h0 : u.BroadcastsInDim ⟨1, ![n]⟩ d0) (p : Fin n) :
    maximumf (broadcastInDim ⟨1, ![n]⟩ d0 h0 (constant (F := Ideal) u .f32 0xFF800000#32))
      (Host.reduce FloatOps.maximumf y (constant (F := Ideal) u .f32 0xFF800000#32) h' hu) (ix1 p) = rowMax y p := by
  rw [maximumf_apply, Rows.hredMax_row y _ h' hr hu p]
  have hb : broadcastInDim ⟨1, ![n]⟩ d0 h0 (constant (F := Ideal) u .f32 0xFF800000#32) (ix1 p) = (⊥ : EReal) := by
    unfold broadcastInDim
    rw [constant_apply, negInf_eq_bot]
  rw [hb, constant_apply, negInf_eq_bot]
  exact max_eq_right bot_le

end Cert.Gcn

end
-- ==== Proof.Region2.lean ====
/-
  The last stage: logp = log_softmax(h2) along each row, computed 5000 rows at a time.

  At grid point t the body takes rows 5000·t … 5000·t + 4999 of h2 (all 40 columns) and, in each row, subtracts the
  row's largest entry, then subtracts the logarithm of the sum of the exponentials of the shifted row. Each row is
  treated by itself, so the block written at t is the same rows of the row-wise log-softmax of h2; the 10 blocks tile
  the 50000 rows.
-/
import proofs.«147804_j44306882625585_1_alg».proof.Proof.Gen.KernelIdeal.Frame
import proofs.«147804_j44306882625585_1_alg».proof.Proof.Spec
import proofs.«147804_j44306882625585_1_alg».proof.Proof.LogSoftmax
import Idealize.ShloMosaic.Lib.Pipeline.Value
import Idealize.ShloMosaic.Lib.ValueIdx

set_option maxRecDepth 16384

noncomputable section

open scoped BigOperators

namespace Cert.KernelIdeal.Stage2

open Cert.KernelIdeal Cert.KernelIdeal.Gen Idealize.ShloMosaic Idealize.ShloMosaic.TcCoe Idealize.ShloMosaic.ValueIdx
open Idealize.ShloMosaic.Pipeline (Dat Cfg Window)
open Cert.Gcn

/-- The body's stored value at (p, q) is the log-softmax of row p of the block at column q. -/
theorem payload_apply (yb : Vec Ideal S5000x40 .f32) (p : Fin 5000) (q : Fin 40) :
    k2_pay1 (F := Ideal) yb (ix2 p q) = logSoftmaxAt (M := 5000) (N := 40) yb p q := by
  unfold k2_pay1
  dsimp only
  rw [shapeCast_self]
  exact kernel_logSoftmax_apply (n := 5000) (c := 40) (by decide) yb reduces_S5000x40_S5000 (.inl rfl) rfl rfl
    shapeCasts_S5000_S5000x1 broadcasts_S5000x1_S5000x40 p q

theorem zeros : (![0, 0] : Fin 2 → Nat) = fun _ => 0 := funext fun a => by fin_cases a <;> rfl

/-- Where the blocks sit: the block of h2 and the block of the output at point t start at row 5000·t, column 0. -/
theorem index_facts : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

variable (V : (c : Dev nD) → (b : Ref sig .tc) → Buf (Elt Ideal) ((c : Thread nD τ).loc b))

/-- The operand as region 2 finds it. -/
abbrev yArr (c : Dev nD) : FVec Ideal ⟨2, ![50000, 40]⟩ .f32 := V c main_v33

/-- The row of the array that row p of block t is. -/
def rowOf (t : Fin cfg2.N) (p : Fin 5000) : Fin 50000 := ⟨t.val * 5000 + p.val, by have hp := p.isLt; have h : t.val < 10 := t.isLt; omega⟩

/-- The block of h2 at point t, read at (p, k), is h2 at row 5000·t + p. -/
theorem yblock_apply (c : Dev nD) (t : Fin cfg2.N) (p : Fin 5000) (k : Fin 40) :
    iblk2 V c 0 t (ix2 p k) = yArr V c (ix2 (rowOf t p) k) := by
  obtain ⟨e0, e1, -, -⟩ := index_facts t
  show V c main_v33 (((cfg2.win 0).blk t).view.emb (ix2 p k)) = V c main_v33 (ix2 (rowOf t p) k)
  refine congrArg (V c main_v33) ?_
  funext a; apply Fin.ext
  match a with
  | ⟨0, _⟩ => show win2_0.index t (0 : Fin 2) * 5000 + 1 * p.val = t.val * 5000 + p.val; omega
  | ⟨1, _⟩ => show win2_0.index t (1 : Fin 2) * 40 + 1 * k.val = k.val; omega

/-- What point t writes back is block t of the row-wise log-softmax of h2. -/
theorem flushed_eq (c : Dev nD) (t : Fin cfg2.N) :
    (dat2 V c).flushed 1 t = ((cfg2.win 1).blk t).view.read (Elt Ideal) (logSoftmaxRows (yArr V c)) := by
  show (cfg2.win 1).cut (grid2.coords t) ((dat2 V c).after 1 t) = _
  rw [after2_1]
  unfold out2_1
  rw [View.canon_unit_zero zeros]
  simp only [View.ld_unit_zero (S := S5000x40) zeros]
  obtain ⟨-, -, e2, e3⟩ := index_facts t
  funext j
  obtain ⟨p, q, rfl⟩ : ∃ (p : Fin 5000) (q : Fin 40), j = ix2 p q := ⟨j 0, j 1, eq_ix2 j⟩
  show k2_pay1 (F := Ideal) (iblk2 V c 0 t) (ix2 p q)
    = logSoftmaxRows (yArr V c) (((cfg2.win 1).blk t).view.emb (ix2 p q))
  have hemb : ((cfg2.win 1).blk t).view.emb (ix2 p q) = ix2 (rowOf t p) q := by
    funext a; apply Fin.ext
    match a with
    | ⟨0, _⟩ => show win2_1.index t (0 : Fin 2) * 5000 + 1 * p.val = t.val * 5000 + p.val; omega
    | ⟨1, _⟩ => show win2_1.index t (1 : Fin 2) * 40 + 1 * q.val = q.val; omega
  rw [hemb, logSoftmaxRows_apply]
  refine (payload_apply (iblk2 V c 0 t) p q).trans ?_
  exact logSoftmaxAt_rows (yArr V c) (iblk2 V c 0 t) (rowOf t) (fun p k => yblock_apply V c t p k) p q

/-- An index of the output is in point t's block iff each coordinate is in the block's range on its axis. -/
theorem mem_block (t : Fin cfg2.N) (i : S50000x40.Idx) :
    i ∈ ((cfg2.win 1).blk t).view.set ↔ ∀ a : Fin 2, win2_1.index t a * S5000x40.size a ≤ (i a).val ∧ (i a).val < win2_1.index t a * S5000x40.size a + S5000x40.size a := by
  show i ∈ ((View.whole main_v34).slice (win2_1.rect t)).set ↔ _
  rw [View.set_slice_whole, Rect.mem_set_unit]
  exact Iff.rfl

/-- Every row lies in the block of the point row / 5000. -/
theorem covered (i : S50000x40.Idx) : ∃ t : Fin cfg2.N, (cfg2.win 1).flush t = true ∧ i ∈ ((cfg2.win 1).blk t).view.set := by
  have hi0 : (i 0).val < 50000 := (i 0).isLt
  have hi1 : (i 1).val < 40 := (i 1).isLt
  let t : Fin cfg2.N := ⟨(i 0).val / 5000, by show _ < 10; omega⟩
  obtain ⟨-, -, e2, e3⟩ := index_facts t
  have ht : t.val = (i 0).val / 5000 := rfl
  refine ⟨t, flush2_1 t, ?_⟩
  rw [mem_block]
  intro a
  match a with
  | ⟨0, _⟩ => show win2_1.index t (0 : Fin 2) * 5000 ≤ (i 0).val ∧ (i 0).val < win2_1.index t (0 : Fin 2) * 5000 + 5000; omega
  | ⟨1, _⟩ => show win2_1.index t (1 : Fin 2) * 40 ≤ (i 1).val ∧ (i 1).val < win2_1.index t (1 : Fin 2) * 40 + 40; omega

/-- After region 2 its output array holds the row-wise log-softmax of h2. -/
theorem final (c : Dev nD) : (dat2 V c).arrAt 1 cfg2.N = logSoftmaxRows (yArr V c) :=
  (dat2 V c).arrAt_eq_of_cover 1 (logSoftmaxRows (yArr V c)) (fun t _ => flushed_eq V c t) covered

end Cert.KernelIdeal.Stage2

end
-- ==== Proof.KernelValue.lean ====
/-
  What the kernel program's three results hold, as functions of its arguments.

  Between the three dense stages the program runs the same host operations as the reference: the graph aggregation of
  layer 1 on the first product and of layer 2 on the second. With the stages' whole-array values (x · W1, relu h1 · W2,
  the row-wise log-softmax) the results are
    h1 = layer1 (x · W1),   h2 = layer2 (relu h1 · W2),   logp = logSoftmaxRows h2,
  read off the contents at the program's segment boundaries: a stage's output array is what its blocks cover, a host
  stretch's result is its operations applied to the contents it starts from, and a buffer that a segment does not write
  keeps its contents.
-/
import proofs.«147804_j44306882625585_1_alg».proof.Proof.KernelRun
import proofs.«147804_j44306882625585_1_alg».proof.Proof.Region0
import proofs.«147804_j44306882625585_1_alg».proof.Proof.Region1
import proofs.«147804_j44306882625585_1_alg».proof.Proof.Region2
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo
open Idealize.ShloMosaic.Pipeline (Dat Cfg Window)
open Cert.Gcn

section Chains

variable {F : FTy → Type} [FloatOps F]

/-- Layer 1's aggregation of a 50000×256 support array: rows gathered by edge_src (a1), scaled by edge_w (a3), added into
    the rows named by edge_dst (a2), plus the bias (a5). -/
def layer1 (sup : (⟨S50000x256, .f32⟩ : BufTy).Contents (Elt F)) (a1 a2 : (⟨S800000, .i32⟩ : BufTy).Contents (Elt F)) (a3 : (⟨S800000, .f32⟩ : BufTy).Contents (Elt F))
    (a5 : (⟨S256, .f32⟩ : BufTy).Contents (Elt F)) : (⟨S50000x256, .f32⟩ : BufTy).Contents (Elt F) :=
  addf (Host.scatterAdd scatter_S50000x256_S800000x1_S800000x256_1_0_0_1 (broadcastInDim S50000x256 ![] bcast_S_S50000x256 (constant S_ .f32 0x00000000#32)) (broadcastInDim S800000x1 ![0] bcast_S800000_S800000x1_0 (a2)) (mulf (Host.gather gather_S50000x256_S800000x1_S800000x256_1_0_n_n_0_1_1256 (sup) (broadcastInDim S800000x1 ![0] bcast_S800000_S800000x1_0 (select (cmpi .slt (a1) (broadcastInDim S800000 ![] bcast_S_S800000 (constantI S_ 32 0#32))) (addi (a1) (broadcastInDim S800000 ![] bcast_S_S800000 (constantI S_ 32 50000#32))) (a1)))) (broadcastInDim S800000x256 ![0, 1] bcast_S800000x1_S800000x256_0_1 (broadcastInDim S800000x1 ![0] bcast_S800000_S800000x1_0 (a3))))) (broadcastInDim S50000x256 ![0, 1] bcast_S1x256_S50000x256_0_1 (broadcastInDim S1x256 ![1] bcast_S256_S1x256_1 (a5)))

/-- Layer 2's aggregation of a 50000×40 support array, the same with the bias a7. -/
def layer2 (sup : (⟨S50000x40, .f32⟩ : BufTy).Contents (Elt F)) (a1 a2 : (⟨S800000, .i32⟩ : BufTy).Contents (Elt F)) (a3 : (⟨S800000, .f32⟩ : BufTy).Contents (Elt F))
    (a7 : (⟨S40, .f32⟩ : BufTy).Contents (Elt F)) : (⟨S50000x40, .f32⟩ : BufTy).Contents (Elt F) :=
  addf (Host.scatterAdd scatter_S50000x40_S800000x1_S800000x40_1_0_0_1 (broadcastInDim S50000x40 ![] bcast_S_S50000x40 (constant S_ .f32 0x00000000#32)) (broadcastInDim S800000x1 ![0] bcast_S800000_S800000x1_0 (a2)) (mulf (Host.gather gather_S50000x40_S800000x1_S800000x40_1_0_n_n_0_1_140 (sup) (broadcastInDim S800000x1 ![0] bcast_S800000_S800000x1_0 (select (cmpi .slt (a1) (broadcastInDim S800000 ![] bcast_S_S800000 (constantI S_ 32 0#32))) (addi (a1) (broadcastInDim S800000 ![] bcast_S_S800000 (constantI S_ 32 50000#32))) (a1)))) (broadcastInDim S800000x40 ![0, 1] bcast_S800000x1_S800000x40_0_1 (broadcastInDim S800000x1 ![0] bcast_S800000_S800000x1_0 (a3))))) (broadcastInDim S50000x40 ![0, 1] bcast_S1x40_S50000x40_0_1 (broadcastInDim S1x40 ![1] bcast_S40_S1x40_1 (a7)))

/-- The first host stretch, from any contents: h1's buffer ends at layer 1's aggregation of region 0's output. -/
theorem stretch1_v16 (W : Valuation τ sig (Elt F)) :
    after (hostOps1 (F := F)) W (Proc.devRef .tc main_v16)
      = layer1 (W (Proc.devRef .tc main_v0)) (W (Proc.devRef .tc main_arg1)) (W (Proc.devRef .tc main_arg2))
          (W (Proc.devRef .tc main_arg3)) (W (Proc.devRef .tc main_arg5)) := by
  after_results_simp <;> rfl

/-- The second host stretch, from any contents: h2's buffer ends at layer 2's aggregation of region 1's output. -/
theorem stretch2_v33 (W : Valuation τ sig (Elt F)) :
    after (hostOps2 (F := F)) W (Proc.devRef .tc main_v33)
      = layer2 (W (Proc.devRef .tc main_v17)) (W (Proc.devRef .tc main_arg1)) (W (Proc.devRef .tc main_arg2))
          (W (Proc.devRef .tc main_arg3)) (W (Proc.devRef .tc main_arg7)) := by
  after_results_simp <;> rfl

/-- The first host stretch writes none of these argument buffers. -/
theorem stretch1_arg1 (W : Valuation τ sig (Elt F)) : after (hostOps1 (F := F)) W (Proc.devRef .tc main_arg1) = W (Proc.devRef .tc main_arg1) := by after_results_simp
theorem stretch1_arg2 (W : Valuation τ sig (Elt F)) : after (hostOps1 (F := F)) W (Proc.devRef .tc main_arg2) = W (Proc.devRef .tc main_arg2) := by after_results_simp
theorem stretch1_arg3 (W : Valuation τ sig (Elt F)) : after (hostOps1 (F := F)) W (Proc.devRef .tc main_arg3) = W (Proc.devRef .tc main_arg3) := by after_results_simp
theorem stretch1_arg6 (W : Valuation τ sig (Elt F)) : after (hostOps1 (F := F)) W (Proc.devRef .tc main_arg6) = W (Proc.devRef .tc main_arg6) := by after_results_simp
theorem stretch1_arg7 (W : Valuation τ sig (Elt F)) : after (hostOps1 (F := F)) W (Proc.devRef .tc main_arg7) = W (Proc.devRef .tc main_arg7) := by after_results_simp
/-- The second host stretch does not write h1's buffer. -/
theorem stretch2_v16 (W : Valuation τ sig (Elt F)) : after (hostOps2 (F := F)) W (Proc.devRef .tc main_v16) = W (Proc.devRef .tc main_v16) := by after_results_simp

end Chains

variable (m : (ℓ : Loc nD τ sig) → Buf (Elt Ideal) ℓ) (ρ : Dev nD → PrngReg)

/-- h1 as a function of the arguments. -/
def h1 (c : Dev nD) : FVec Ideal ⟨2, ![50000, 256]⟩ .f32 :=
  layer1 (F := Ideal) (rowsTimes (M := 50000) (K := 512) (N := 256) (m ((c.tc : Thread nD τ).loc main_arg0)) (m ((c.tc : Thread nD τ).loc main_arg4))) (m ((c.tc : Thread nD τ).loc main_arg1)) (m ((c.tc : Thread nD τ).loc main_arg2)) (m ((c.tc : Thread nD τ).loc main_arg3)) (m ((c.tc : Thread nD τ).loc main_arg5))

/-- h2 as a function of h1 and the arguments. -/
def h2 (c : Dev nD) : FVec Ideal ⟨2, ![50000, 40]⟩ .f32 :=
  layer2 (F := Ideal) (rowsTimes (M := 50000) (K := 256) (N := 40) (relu (h1 m c)) (m ((c.tc : Thread nD τ).loc main_arg6))) (m ((c.tc : Thread nD τ).loc main_arg1)) (m ((c.tc : Thread nD τ).loc main_arg2)) (m ((c.tc : Thread nD τ).loc main_arg3)) (m ((c.tc : Thread nD τ).loc main_arg7))

/-- The log-probabilities as a function of h2. -/
def logp (c : Dev nD) : FVec Ideal ⟨2, ![50000, 40]⟩ .f32 := logSoftmaxRows (h2 m c)

/-! ## The contents at the segment boundaries -/

/-- Region 0 leaves an argument buffer that is not one of its arrays as launched. -/
theorem W1_keeps (c : Dev nD) (b : Ref sig .tc) (hb : ∀ w, Pipeline.arrRef spec0 w ≠ b) :
    W1 m ρ c (Proc.devRef .tc b) = m ((c.tc : Thread nD τ).loc b) :=
  W1_of_ne m ρ c b hb

/-- Region 0's output array after it: x · W1. -/
theorem W1_v0 (c : Dev nD) :
    W1 m ρ c (Proc.devRef .tc main_v0) = rowsTimes (M := 50000) (K := 512) (N := 256) (m ((c.tc : Thread nD τ).loc main_arg0)) (m ((c.tc : Thread nD τ).loc main_arg4)) :=
  (W1_arr m ρ c 2).trans (Stage0.final (V0 m ρ) c)

/-- Region 1 finds h1's buffer at `h1`. -/
theorem V2_v16 (c : Dev nD) : V2 m ρ c main_v16 = h1 m c := by
  show after (hostOps1 (F := Ideal)) (W1 m ρ c) (Proc.devRef .tc main_v16) = _
  rw [stretch1_v16, W1_v0, W1_keeps m ρ c main_arg1 (by decide), W1_keeps m ρ c main_arg2 (by decide),
    W1_keeps m ρ c main_arg3 (by decide), W1_keeps m ρ c main_arg5 (by decide)]
  rfl

/-- Region 1 finds W2's buffer as launched. -/
theorem V2_arg6 (c : Dev nD) : V2 m ρ c main_arg6 = m ((c.tc : Thread nD τ).loc main_arg6) := by
  show after (hostOps1 (F := Ideal)) (W1 m ρ c) (Proc.devRef .tc main_arg6) = _
  rw [stretch1_arg6, W1_keeps m ρ c main_arg6 (by decide)]

/-- Region 1's output array after it: relu h1 · W2. -/
theorem W3_v17 (c : Dev nD) :
    W3 m ρ c (Proc.devRef .tc main_v17) = rowsTimes (M := 50000) (K := 256) (N := 40) (relu (h1 m c)) (m ((c.tc : Thread nD τ).loc main_arg6)) := by
  refine ((W3_arr m ρ c 2).trans (Stage1.final (V2 m ρ) c)).trans ?_
  show rowsTimes (relu (V2 m ρ c main_v16)) (V2 m ρ c main_arg6) = _
  rw [V2_v16, V2_arg6]

/-- Region 1 leaves an argument buffer that is not one of its arrays as the first host stretch left it. -/
theorem W3_arg (c : Dev nD) (b : Ref sig .tc) (hb : ∀ w, Pipeline.arrRef spec1 w ≠ b)
    (h1s : after (hostOps1 (F := Ideal)) (W1 m ρ c) (Proc.devRef .tc b) = W1 m ρ c (Proc.devRef .tc b))
    (h0 : ∀ w, Pipeline.arrRef spec0 w ≠ b) :
    W3 m ρ c (Proc.devRef .tc b) = m ((c.tc : Thread nD τ).loc b) :=
  (W3_of_ne m ρ c b hb).trans (h1s.trans (W1_keeps m ρ c b h0))

/-- Region 2 finds h2's buffer at `h2`. -/
theorem V4_v33 (c : Dev nD) : V4 m ρ c main_v33 = h2 m c := by
  show after (hostOps2 (F := Ideal)) (W3 m ρ c) (Proc.devRef .tc main_v33) = _
  rw [stretch2_v33, W3_v17,
    W3_arg m ρ c main_arg1 (by decide) (stretch1_arg1 _) (by decide),
    W3_arg m ρ c main_arg2 (by decide) (stretch1_arg2 _) (by decide),
    W3_arg m ρ c main_arg3 (by decide) (stretch1_arg3 _) (by decide),
    W3_arg m ρ c main_arg7 (by decide) (stretch1_arg7 _) (by decide)]
  rfl

/-! ## The three results at the last boundary -/

/-- The first result: the log-probabilities. -/
theorem W5_v34 (c : Dev nD) : W5 m ρ c (Proc.devRef .tc main_v34) = logp m c := by
  refine ((W5_arr m ρ c 1).trans (Stage2.final (V4 m ρ) c)).trans ?_
  show logSoftmaxRows (V4 m ρ c main_v33) = _
  rw [V4_v33]
  rfl

/-- The second result: h1, which the second host stretch and the last two regions leave in place. -/
theorem W5_v16 (c : Dev nD) : W5 m ρ c (Proc.devRef .tc main_v16) = h1 m c :=
  calc W5 m ρ c (Proc.devRef .tc main_v16)
    _ = W4 m ρ c (Proc.devRef .tc main_v16) := W5_of_ne m ρ c main_v16 (by decide)
    _ = W3 m ρ c (Proc.devRef .tc main_v16) := stretch2_v16 (W3 m ρ c)
    _ = V2 m ρ c main_v16 := (W3_arr m ρ c 0).trans (((dat1 (V2 m ρ) c).arrAt_in 0 rfl _).trans (A_eq1 (V2 m ρ) c 0))
    _ = h1 m c := V2_v16 m ρ c

/-- The third result: h2, which the last region reads and leaves in place. -/
theorem W5_v33 (c : Dev nD) : W5 m ρ c (Proc.devRef .tc main_v33) = h2 m c :=
  calc W5 m ρ c (Proc.devRef .tc main_v33)
    _ = V4 m ρ c main_v33 := (W5_arr m ρ c 0).trans (((dat2 (V4 m ρ) c).arrAt_in 0 rfl _).trans (A_eq2 (V4 m ρ) c 0))
    _ = h2 m c := V4_v33 m ρ c

/-- The kernel program's run with its results named: every weakly fair execution terminates, nothing faulting, with the
    three results at `logp`, `h1`, `h2` of the arguments and the arguments as launched. -/
theorem run : θ_run defs (onTc (τ := τ) (main (F := Ideal))) ⟨m, fun _ => 0, ρ⟩ (fun r => ∀ c : Dev nD,
      r.2.mem ((c.tc : Thread nD τ).loc main_v34) = logp m c
      ∧ r.2.mem ((c.tc : Thread nD τ).loc main_v16) = h1 m c
      ∧ r.2.mem ((c.tc : Thread nD τ).loc main_v33) = h2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c).1.trans (W5_v34 m ρ c), (h c).2.1.trans (W5_v16 m ρ c), (h c).2.2.1.trans (W5_v33 m ρ c), (h c).2.2.2⟩)
    (Cert.KernelIdeal.GenRun.run_results (F := Ideal) m ρ)

end Cert.KernelIdeal.Val

end
-- ==== Proof.LibTypedRef.lean ====
/-
  Typed references of a module-local function: contents carried to the buffer's own type and back.

  A typed reference `x : TRef sig T` names a buffer whose type is `T` by an equation. An operation of a function's body
  reads an operand through `x.ofBuf` (from the buffer's type to `T`) and writes its result through `x.toBuf` (from `T`
  to the buffer's type); both are transports along that equation, so one after the other is the identity, whatever the
  equation's proof. With these two facts the run of an inlined function's operations reads as the plain composition of
  their functions.
-/
import Idealize.ShloMosaic.Lib.StableHlo

namespace Cert.TypedRef

open Idealize.ShloMosaic Idealize.ShloMosaic.StableHlo

variable {sig : RefSig} {Val : EltTy → Type} {T : BufTy}

/-- Written to the buffer's type and read back at the value's type: the value. -/
theorem ofBuf_toBuf (x : TRef sig T) (v : T.Contents Val) : x.ofBuf (x.toBuf v) = v := by
  obtain ⟨r, rfl, _, _⟩ := x
  rfl

/-- Read at the value's type and written back to the buffer's type: the contents. -/
theorem toBuf_ofBuf (x : TRef sig T) (v : x.ref.ty.Contents Val) : x.toBuf (x.ofBuf v) = v := by
  obtain ⟨r, rfl, _, _⟩ := x
  rfl

end Cert.TypedRef
-- ==== Proof.RefValue.lean ====
/-
  The reference's run, stage by stage.

  The reference is a straight line of 58 host operations: the product x · W1, the graph aggregation of layer 1 (gather the
  rows named by edge_src, scale by edge_w, add each into the row named by edge_dst, add the bias), the positive part, the
  product with W2, the aggregation of layer 2, and the row-wise log-softmax. Each result is named as a function of the
  stage before it: h1 = layer1 (x · W1), h2 = layer2 (relu h1 · W2), logp = logSoftmaxHost h2. The log-softmax uses its
  operand four times over, so its stage is read with the operand kept as one unknown array: the last 15 operations are
  run from ANY contents `W`, and the first 43 give `W` at h2's buffer.
-/
import proofs.«147804_j44306882625585_1_alg».proof.Defs
import proofs.«147804_j44306882625585_1_alg».proof.Proof.RefRun
import proofs.«147804_j44306882625585_1_alg».proof.Proof.LibTypedRef
import Idealize.ShloMosaic.Lib.StableHlo.Run
import Idealize.ShloMosaic.Lib.Pipeline.Frame

set_option maxRecDepth 16384

noncomputable section

namespace Cert.ReferenceIdeal.Staged

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-- Layer 1's aggregation of a 50000×256 support array: rows gathered by edge_src (a1), scaled by edge_w (a3), added into
    the rows named by edge_dst (a2), plus the bias (a5). -/
def layer1 (sup : (⟨S50000x256, .f32⟩ : BufTy).Contents (Elt F)) (a1 a2 : (⟨S800000, .i32⟩ : BufTy).Contents (Elt F)) (a3 : (⟨S800000, .f32⟩ : BufTy).Contents (Elt F))
    (a5 : (⟨S256, .f32⟩ : BufTy).Contents (Elt F)) : (⟨S50000x256, .f32⟩ : BufTy).Contents (Elt F) :=
  addf (Host.scatterAdd scatter_S50000x256_S800000x1_S800000x256_1_0_0_1 (broadcastInDim S50000x256 ![] bcast_S_S50000x256 (constant S_ .f32 0x00000000#32)) (broadcastInDim S800000x1 ![0] bcast_S800000_S800000x1_0 (a2)) (mulf (Host.gather gather_S50000x256_S800000x1_S800000x256_1_0_n_n_0_1_1256 (sup) (broadcastInDim S800000x1 ![0] bcast_S800000_S800000x1_0 (select (cmpi .slt (a1) (broadcastInDim S800000 ![] bcast_S_S800000 (constantI S_ 32 0#32))) (addi (a1) (broadcastInDim S800000 ![] bcast_S_S800000 (constantI S_ 32 50000#32))) (a1)))) (broadcastInDim S800000x256 ![0, 1] bcast_S800000x1_S800000x256_0_1 (broadcastInDim S800000x1 ![0] bcast_S800000_S800000x1_0 (a3))))) (broadcastInDim S50000x256 ![0, 1] bcast_S1x256_S50000x256_0_1 (broadcastInDim S1x256 ![1] bcast_S256_S1x256_1 (a5)))

/-- Layer 2's aggregation of a 50000×40 support array, the same with the bias a7. -/
def layer2 (sup : (⟨S50000x40, .f32⟩ : BufTy).Contents (Elt F)) (a1 a2 : (⟨S800000, .i32⟩ : BufTy).Contents (Elt F)) (a3 : (⟨S800000, .f32⟩ : BufTy).Contents (Elt F))
    (a7 : (⟨S40, .f32⟩ : BufTy).Contents (Elt F)) : (⟨S50000x40, .f32⟩ : BufTy).Contents (Elt F) :=
  addf (Host.scatterAdd scatter_S50000x40_S800000x1_S800000x40_1_0_0_1 (broadcastInDim S50000x40 ![] bcast_S_S50000x40 (constant S_ .f32 0x00000000#32)) (broadcastInDim S800000x1 ![0] bcast_S800000_S800000x1_0 (a2)) (mulf (Host.gather gather_S50000x40_S800000x1_S800000x40_1_0_n_n_0_1_140 (sup) (broadcastInDim S800000x1 ![0] bcast_S800000_S800000x1_0 (select (cmpi .slt (a1) (broadcastInDim S800000 ![] bcast_S_S800000 (constantI S_ 32 0#32))) (addi (a1) (broadcastInDim S800000 ![] bcast_S_S800000 (constantI S_ 32 50000#32))) (a1)))) (broadcastInDim S800000x40 ![0, 1] bcast_S800000x1_S800000x40_0_1 (broadcastInDim S800000x1 ![0] bcast_S800000_S800000x1_0 (a3))))) (broadcastInDim S50000x40 ![0, 1] bcast_S1x40_S50000x40_0_1 (broadcastInDim S1x40 ![1] bcast_S40_S1x40_1 (a7)))

/-- The positive part as the host spells it: the maximum with a broadcast zero. -/
def reluHost (h : (⟨S50000x256, .f32⟩ : BufTy).Contents (Elt F)) : (⟨S50000x256, .f32⟩ : BufTy).Contents (Elt F) :=
  maximumf h (broadcastInDim S50000x256 ![] bcast_S_S50000x256 (constant S_ .f32 0x00000000#32))

/-- The row-wise log-softmax as the host spells it. -/
def logSoftmaxHost (y : (⟨S50000x40, .f32⟩ : BufTy).Contents (Elt F)) : (⟨S50000x40, .f32⟩ : BufTy).Contents (Elt F) :=
  subf (subf (y) (broadcastInDim S50000x40 ![0, 1] bcast_S50000x1_S50000x40_0_1 (broadcastInDim S50000x1 ![0] bcast_S50000_S50000x1_0 (maximumf (broadcastInDim S50000 ![] bcast_S_S50000 (constant S_ .f32 0xFF800000#32)) (Host.reduce FloatOps.maximumf (y) (constant S_ .f32 0xFF800000#32) reducesTo_S50000x40_S50000_d1 h_S_))))) (broadcastInDim S50000x40 ![0, 1] bcast_S50000x1_S50000x40_0_1 (Host.log (broadcastInDim S50000x1 ![0] bcast_S50000_S50000x1_0 (Host.reduceAdd (Host.exp (subf (y) (broadcastInDim S50000x40 ![0, 1] bcast_S50000x1_S50000x40_0_1 (broadcastInDim S50000x1 ![0] bcast_S50000_S50000x1_0 (maximumf (broadcastInDim S50000 ![] bcast_S_S50000 (constant S_ .f32 0xFF800000#32)) (Host.reduce FloatOps.maximumf (y) (constant S_ .f32 0xFF800000#32) reducesTo_S50000x40_S50000_d1 h_S_)))))) (constant S_ .f32 0x00000000#32) reducesTo_S50000x40_S50000_d1 h_S_))))

variable (m : (ℓ : Loc nD τ sig) → Buf (Elt F) ℓ)

/-- h1 as a function of the arguments. -/
def h1 (c : Dev nD) : (⟨S50000x256, .f32⟩ : BufTy).Contents (Elt F) :=
  layer1 (Host.dotGeneral dot_S50000x512_S512x256_S50000x256_1_0_0_1_n_n none (m ((c.tc : Thread nD τ).loc main_arg0)) (m ((c.tc : Thread nD τ).loc main_arg4)))
    (m ((c.tc : Thread nD τ).loc main_arg1)) (m ((c.tc : Thread nD τ).loc main_arg2)) (m ((c.tc : Thread nD τ).loc main_arg3)) (m ((c.tc : Thread nD τ).loc main_arg5))

/-- h2 as a function of h1 and the arguments. -/
def h2 (c : Dev nD) : (⟨S50000x40, .f32⟩ : BufTy).Contents (Elt F) :=
  layer2 (Host.dotGeneral dot_S50000x256_S256x40_S50000x40_1_0_0_1_n_n none (reluHost (h1 m c)) (m ((c.tc : Thread nD τ).loc main_arg6)))
    (m ((c.tc : Thread nD τ).loc main_arg1)) (m ((c.tc : Thread nD τ).loc main_arg2)) (m ((c.tc : Thread nD τ).loc main_arg3)) (m ((c.tc : Thread nD τ).loc main_arg7))

/-! ## The operations' fold at the three results -/

/-- After all 58 operations h1's buffer holds `h1`. -/
theorem after_v16 (c : Dev nD) :
    after (ops (F := F)) (launchContents m c) (Proc.devRef .tc main_v16) = h1 m c := by
  after_results_simp <;> rfl

/-- After all 58 operations h2's buffer holds `h2`. -/
theorem after_v34 (c : Dev nD) :
    after (ops (F := F)) (launchContents m c) (Proc.devRef .tc main_v34) = h2 m c := by
  after_results_simp <;> rfl

/-- The last 15 operations, from any contents: the result buffer ends at the log-softmax of what h2's buffer held. -/
theorem tail_v35 (W : Valuation τ sig (Elt F)) :
    after ((ops (F := F)).drop 43) W (Proc.devRef .tc main_v35) = logSoftmaxHost (W (Proc.devRef .tc main_v34)) := by
  simp only [ops, List.drop_succ_cons, List.drop_zero]
  after_results_simp
  -- each operation of the inlined function writes through its typed reference and the next reads through it: the pairs cancel
  simp only [Cert.TypedRef.ofBuf_toBuf]
  rfl

/-- The last 15 operations do not write h2's buffer. -/
theorem tail_v34 (W : Valuation τ sig (Elt F)) :
    after ((ops (F := F)).drop 43) W (Proc.devRef .tc main_v34) = W (Proc.devRef .tc main_v34) := by
  simp only [ops, List.drop_succ_cons, List.drop_zero]
  after_results_simp

/-- After all 58 operations the result buffer holds the log-softmax of `h2`. -/
theorem after_v35 (c : Dev nD) :
    after (ops (F := F)) (launchContents m c) (Proc.devRef .tc main_v35) = logSoftmaxHost (h2 m c) := by
  rw [← after_v34 m c]
  have hsplit : (ops (F := F)) = (ops (F := F)).take 43 ++ (ops (F := F)).drop 43 := (List.take_append_drop 43 _).symm
  rw [hsplit, StableHlo.after_append]
  generalize after ((ops (F := F)).take 43) (launchContents m c) = W
  rw [tail_v35, tail_v34]

/-- The reference's run with its results named: every weakly fair execution terminates, nothing faulting, with the three
    results at the log-softmax of `h2`, at `h1` and at `h2` of the arguments, and the arguments as launched. -/
theorem run (ρ : Dev nD → PrngReg) :
    θ_run defs (onTc (τ := τ) (main (F := F))) ⟨m, fun _ => 0, ρ⟩ fun r => ∀ c : Dev nD,
      r.2.mem ((c.tc : Thread nD τ).loc main_v35) = logSoftmaxHost (h2 m c)
      ∧ r.2.mem ((c.tc : Thread nD τ).loc main_v16) = h1 m c
      ∧ r.2.mem ((c.tc : Thread nD τ).loc main_v34) = h2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v35).trans (after_v35 m c),
      (h c main_v16).trans (after_v16 m c),
      (h c main_v34).trans (after_v34 m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.Staged

end
-- ==== Proof.HostForms.lean ====
/-
  The host's spellings of the positive part and of the row-wise log-softmax, read at an index.

  The host makes a row's column by two broadcast_in_dim steps, [n] → [n, 1] → [n, c], and passes the row maximum once more
  through a maximum with -∞; with those read away its log-softmax at (p, q) is
  (y[p,q] - m_p) - log (0 + Σ_k exp(y[p,k] - m_p)), the sum started from the literal zero.
-/
import proofs.«147804_j44306882625585_1_alg».proof.Proof.LogSoftmax

noncomputable section

open scoped BigOperators

namespace Cert.Gcn

open Idealize.ShloMosaic Idealize.ShloMosaic.ValueIdx

variable {n c : Nat}

/-- The host's shifted row: y[p, q] - m_p. -/
theorem host_shift_apply (hn : n ≠ 1) (y : FVec Ideal ⟨2, ![n, c]⟩ .f32)
    (h' : (⟨2, ![n, c]⟩ : Shape).ReducesTo [1] ⟨1, ![n]⟩) (hr : (⟨2, ![n, c]⟩ : Shape).Reduces [1] ⟨1, ![n]⟩)
    {u : Shape} (hu : 0 < u.numel) (d0 : Fin u.rank → Fin 1) (h0 : u.BroadcastsInDim ⟨1, ![n]⟩ d0)
    (d1 : Fin 1 → Fin 2) (hd1 : d1 0 = 0) (h1 : (⟨1, ![n]⟩ : Shape).BroadcastsInDim ⟨2, ![n, 1]⟩ d1)
    (d2 : Fin 2 → Fin 2) (hd20 : d2 0 = 0) (hd21 : d2 1 = 1) (h2 : (⟨2, ![n, 1]⟩ : Shape).BroadcastsInDim ⟨2, ![n, c]⟩ d2)
    (p : Fin n) (q : Fin c) :
    subf y (broadcastInDim ⟨2, ![n, c]⟩ d2 h2 (broadcastInDim ⟨2, ![n, 1]⟩ d1 h1
      (maximumf (broadcastInDim ⟨1, ![n]⟩ d0 h0 (constant (F := Ideal) u .f32 0xFF800000#32))
        (Host.reduce FloatOps.maximumf y (constant (F := Ideal) u .f32 0xFF800000#32) h' hu)))) (ix2 p q)
      = y (ix2 p q) - rowMax y p := by
  rw [subf_apply, host_column_of_vector_apply hn _ d1 hd1 h1 d2 hd20 hd21 h2, host_rowMax y h' hr hu d0 h0]

/-- The host's log-softmax at (p, q). -/
theorem host_logSoftmax_apply (hn : n ≠ 1) (y : FVec Ideal ⟨2, ![n, c]⟩ .f32)
    (h' : (⟨2, ![n, c]⟩ : Shape).ReducesTo [1] ⟨1, ![n]⟩) (hr : (⟨2, ![n, c]⟩ : Shape).Reduces [1] ⟨1, ![n]⟩)
    {u : Shape} (hu : 0 < u.numel) (d0 : Fin u.rank → Fin 1) (h0 : u.BroadcastsInDim ⟨1, ![n]⟩ d0)
    (d1 : Fin 1 → Fin 2) (hd1 : d1 0 = 0) (h1 : (⟨1, ![n]⟩ : Shape).BroadcastsInDim ⟨2, ![n, 1]⟩ d1)
    (d2 : Fin 2 → Fin 2) (hd20 : d2 0 = 0) (hd21 : d2 1 = 1) (h2 : (⟨2, ![n, 1]⟩ : Shape).BroadcastsInDim ⟨2, ![n, c]⟩ d2)
    (p : Fin n) (q : Fin c) :
    subf (subf y (broadcastInDim ⟨2, ![n, c]⟩ d2 h2 (broadcastInDim ⟨2, ![n, 1]⟩ d1 h1
        (maximumf (broadcastInDim ⟨1, ![n]⟩ d0 h0 (constant (F := Ideal) u .f32 0xFF800000#32))
          (Host.reduce FloatOps.maximumf y (constant (F := Ideal) u .f32 0xFF800000#32) h' hu)))))
      (broadcastInDim ⟨2, ![n, c]⟩ d2 h2 (Host.log (broadcastInDim ⟨2, ![n, 1]⟩ d1 h1
        (Host.reduceAdd (Host.exp (subf y (broadcastInDim ⟨2, ![n, c]⟩ d2 h2 (broadcastInDim ⟨2, ![n, 1]⟩ d1 h1
            (maximumf (broadcastInDim ⟨1, ![n]⟩ d0 h0 (constant (F := Ideal) u .f32 0xFF800000#32))
              (Host.reduce FloatOps.maximumf y (constant (F := Ideal) u .f32 0xFF800000#32) h' hu))))))
          (constant (F := Ideal) u .f32 0x00000000#32) h' hu)))) (ix2 p q)
      = logSoftmaxAt y p q := by
  rw [subf_apply, host_shift_apply hn y h' hr hu d0 h0 d1 hd1 h1 d2 hd20 hd21 h2,
    Column.broadcastInDim_a1_ab_apply hn _ d2 hd20 hd21]
  show _ - Ideal.log (broadcastInDim (s := ⟨1, ![n]⟩) ⟨2, ![n, 1]⟩ d1 h1 _ (ix2 p (0 : Fin 1))) = _
  rw [Column.broadcastInDim_a_a1_apply _ d1 hd1, Rows.hredAdd_row _ _ h' hr hu p, constant_apply, Ideal.ofBits_zero_f32, zero_add]
  unfold logSoftmaxAt
  refine congrArg (fun s => y (ix2 p q) - rowMax y p - Ideal.log s) (Finset.sum_congr rfl fun k _ => ?_)
  show Ideal.exp (subf y _ (ix2 p k)) = _
  rw [host_shift_apply hn y h' hr hu d0 h0 d1 hd1 h1 d2 hd20 hd21 h2]

/-- The host's positive part, a maximum with a broadcast zero, entry by entry. -/
theorem host_relu_apply {s : Shape} (x : FVec Ideal s .f32) {u : Shape} (d : Fin u.rank → Fin s.rank) (h : u.BroadcastsInDim s d)
    (i : s.Idx) :
    maximumf x (broadcastInDim s d h (constant (F := Ideal) u .f32 0x00000000#32)) i = max (x i) 0 := by
  rw [maximumf_apply]
  have hb : broadcastInDim s d h (constant (F := Ideal) u .f32 0x00000000#32) i = (0 : EReal) := by
    unfold broadcastInDim
    rw [constant_apply, Ideal.ofBits_zero_f32]
  rw [hb]

end Cert.Gcn

end
-- ==== Proof.Bridge.lean ====
/-
  The two programs compute the same three arrays.

  Both apply the same host operations around the dense stages, so it is enough that the stages agree:
  the host's product is the sum over k that the kernel's blocks fill in (x · W1, and relu h1 · W2 after the host's
  maximum with zero is read as the positive part), and the host's log-softmax is the row-wise one the kernel's blocks
  fill in. The shared aggregations are the same operations in the two programs' vocabularies.
-/
import proofs.«147804_j44306882625585_1_alg».proof.Proof.KernelValue
import proofs.«147804_j44306882625585_1_alg».proof.Proof.RefValue
import proofs.«147804_j44306882625585_1_alg».proof.Proof.HostForms
import proofs.«147804_j44306882625585_1_alg».proof.Proof.LibPlainDot

set_option maxRecDepth 16384

noncomputable section

namespace Cert.Proof.Bridge

open Idealize.ShloMosaic Idealize.ShloMosaic.TcCoe Idealize.SL.Sem Idealize.ShloMosaic.ValueIdx
open Cert.Gcn

section Chains
variable {F : FTy → Type} [FloatOps F]

/-- Layer 1's aggregation is one function in the two programs. -/
theorem layer1_eq (sup : (⟨Cert.ReferenceIdeal.S50000x256, .f32⟩ : BufTy).Contents (Elt F)) (a1 a2 : (⟨Cert.ReferenceIdeal.S800000, .i32⟩ : BufTy).Contents (Elt F)) (a3 : (⟨Cert.ReferenceIdeal.S800000, .f32⟩ : BufTy).Contents (Elt F)) (a5 : (⟨Cert.ReferenceIdeal.S256, .f32⟩ : BufTy).Contents (Elt F)) :
    Cert.ReferenceIdeal.Staged.layer1 (F := F) sup a1 a2 a3 a5 = Cert.KernelIdeal.Val.layer1 (F := F) sup a1 a2 a3 a5 := rfl

/-- Layer 2's aggregation is one function in the two programs. -/
theorem layer2_eq (sup : (⟨Cert.ReferenceIdeal.S50000x40, .f32⟩ : BufTy).Contents (Elt F)) (a1 a2 : (⟨Cert.ReferenceIdeal.S800000, .i32⟩ : BufTy).Contents (Elt F)) (a3 : (⟨Cert.ReferenceIdeal.S800000, .f32⟩ : BufTy).Contents (Elt F)) (a7 : (⟨Cert.ReferenceIdeal.S40, .f32⟩ : BufTy).Contents (Elt F)) :
    Cert.ReferenceIdeal.Staged.layer2 (F := F) sup a1 a2 a3 a7 = Cert.KernelIdeal.Val.layer2 (F := F) sup a1 a2 a3 a7 := rfl

end Chains

/-- The host's first product is x · W1. -/
theorem dot1_eq (x : FVec Ideal ⟨2, ![50000, 512]⟩ .f32) (w : FVec Ideal ⟨2, ![512, 256]⟩ .f32) :
    Host.dotGeneral Cert.ReferenceIdeal.dot_S50000x512_S512x256_S50000x256_1_0_0_1_n_n none x w = rowsTimes x w := by
  funext i
  obtain ⟨p, q, rfl⟩ : ∃ (p : Fin 50000) (q : Fin 256), i = ix2 p q := ⟨i 0, i 1, eq_ix2 i⟩
  exact Cert.PlainDot.dotGeneral_apply (M := 50000) (K := 512) (N := 256) none .single x w p q

/-- The host's second product is its left operand times W2. -/
theorem dot2_eq (x : FVec Ideal ⟨2, ![50000, 256]⟩ .f32) (w : FVec Ideal ⟨2, ![256, 40]⟩ .f32) :
    Host.dotGeneral Cert.ReferenceIdeal.dot_S50000x256_S256x40_S50000x40_1_0_0_1_n_n none x w = rowsTimes x w := by
  funext i
  obtain ⟨p, q, rfl⟩ : ∃ (p : Fin 50000) (q : Fin 40), i = ix2 p q := ⟨i 0, i 1, eq_ix2 i⟩
  exact Cert.PlainDot.dotGeneral_apply (M := 50000) (K := 256) (N := 40) none .single x w p q

/-- The host's maximum with a broadcast zero is the positive part. -/
theorem relu_eq (h : FVec Ideal ⟨2, ![50000, 256]⟩ .f32) : Cert.ReferenceIdeal.Staged.reluHost (F := Ideal) h = relu h := by
  funext i
  unfold Cert.ReferenceIdeal.Staged.reluHost
  rw [host_relu_apply]
  rfl

/-- The host's log-softmax is the row-wise one. -/
theorem logSoftmax_eq (y : FVec Ideal ⟨2, ![50000, 40]⟩ .f32) : Cert.ReferenceIdeal.Staged.logSoftmaxHost (F := Ideal) y = logSoftmaxRows y := by
  funext i
  obtain ⟨p, q, rfl⟩ : ∃ (p : Fin 50000) (q : Fin 40), i = ix2 p q := ⟨i 0, i 1, eq_ix2 i⟩
  unfold Cert.ReferenceIdeal.Staged.logSoftmaxHost
  exact host_logSoftmax_apply (n := 50000) (c := 40) (by decide) y _ (by decide) _ ![] _ ![0] rfl _ ![0, 1] rfl rfl _ p q

/-! ## The results agree -/

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))

include hagree

theorem h1_eq (c : Dev Cert.KernelIdeal.nD) : Cert.ReferenceIdeal.Staged.h1 m' c = Cert.KernelIdeal.Val.h1 m c := by
  obtain ⟨e0, e1, e2, e3, e4, e5, e6, e7⟩ := hagree c
  unfold Cert.ReferenceIdeal.Staged.h1 Cert.KernelIdeal.Val.h1
  rw [e0, e1, e2, e3, e4, e5, dot1_eq]
  exact layer1_eq _ _ _ _ _

theorem h2_eq (c : Dev Cert.KernelIdeal.nD) : Cert.ReferenceIdeal.Staged.h2 m' c = Cert.KernelIdeal.Val.h2 m c := by
  obtain ⟨e0, e1, e2, e3, e4, e5, e6, e7⟩ := hagree c
  unfold Cert.ReferenceIdeal.Staged.h2 Cert.KernelIdeal.Val.h2
  rw [h1_eq m m' hagree c, e1, e2, e3, e6, e7, relu_eq, dot2_eq]
  exact layer2_eq _ _ _ _ _

theorem logp_eq (c : Dev Cert.KernelIdeal.nD) : Cert.ReferenceIdeal.Staged.logSoftmaxHost (Cert.ReferenceIdeal.Staged.h2 m' c) = Cert.KernelIdeal.Val.logp m c := by
  rw [h2_eq m m' hagree c, logSoftmax_eq]
  rfl

end Cert.Proof.Bridge

end
-- ==== Proof.lean ====
/-
  The certificate of the two-layer graph convolution: the Pallas program (two dense products computed in row blocks, a
  row-wise log-softmax computed in row blocks, the graph aggregations on the host between them) against the plain
  reference (whole products, the same aggregations, jax's log-softmax).

  Frames: the kernel program's, read as printed and read on the extended reals, are the generated ones; the reference has
  no kernel, and its frame is its run with the results forgotten. Nothing was rewritten when the kernel program was
  idealized, so there is nothing to preserve. The value claim: on the extended reals both programs end with
  logp = logSoftmaxRows h2, h1 = layer1 (x · W1), h2 = layer2 (relu h1 · W2) of the same arguments, the kernel's side read
  block by block (Proof/Region0–2, Proof/KernelValue), the reference's operation by operation (Proof/RefValue), and the two
  spellings identified in Proof/Bridge. Only the order of a sum and of a maximum differs between the sides, so no
  finiteness of the inputs is used.
-/
import proofs.«147804_j44306882625585_1_alg».proof.Defs
import proofs.«147804_j44306882625585_1_alg».proof.Proof.Gen.Kernel
import proofs.«147804_j44306882625585_1_alg».proof.Proof.Gen.Kernel.Frame
import proofs.«147804_j44306882625585_1_alg».proof.Proof.Gen.KernelIdeal
import proofs.«147804_j44306882625585_1_alg».proof.Proof.Gen.KernelIdeal.Frame
import proofs.«147804_j44306882625585_1_alg».proof.Proof.Gen.ReferenceIdeal
import proofs.«147804_j44306882625585_1_alg».proof.Proof.Gen.Pre_finite_inputs
import proofs.«147804_j44306882625585_1_alg».proof.Proof.KernelValue
import proofs.«147804_j44306882625585_1_alg».proof.Proof.RefValue
import proofs.«147804_j44306882625585_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the three results dropped. -/
theorem frame_referenceIdeal : Cert.frame_ReferenceIdeal := fun m ρ _ =>
  (θ_run Cert.ReferenceIdeal.defs _ _).mono (fun _ h c => (h c).2.2.2) (Cert.ReferenceIdeal.Staged.run (F := Ideal) m ρ)

/-- On the extended reals, from memories that agree on the arguments, both programs end with the same three arrays. -/
theorem algebraic : Cert.algebraic_KernelIdeal_ReferenceIdeal := by
  intro m ρ m' ρ' _ hagree
  refine ⟨fun c => Cert.KernelIdeal.Val.logp m c, fun c => Cert.KernelIdeal.Val.h1 m c, fun c => Cert.KernelIdeal.Val.h2 m c,
    Cert.KernelIdeal.Val.run m ρ, ?_⟩
  refine (θ_run Cert.ReferenceIdeal.defs _ _).mono (fun r h c => ?_) (Cert.ReferenceIdeal.Staged.run (F := Ideal) m' ρ')
  exact ⟨(h c).1.trans (Bridge.logp_eq m m' hagree c), (h c).2.1.trans (Bridge.h1_eq m m' hagree c),
    (h c).2.2.1.trans (Bridge.h2_eq m m' hagree c), (h c).2.2.2⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
